-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S8192x256 .f32) (main_arg3 : FVec F S8192x8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 52
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S8192x256, .bf16⟩
  | .hbm, ⟨42, _⟩ => ⟨S8x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_call3_v0 : Ref sig .tc := ⟨.hbm, 31, rfl⟩
abbrev main_call3_cst : Ref sig .tc := ⟨.hbm, 32, rfl⟩
abbrev main_call3_v1 : Ref sig .tc := ⟨.hbm, 33, rfl⟩
abbrev main_call3_v2 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let arg1 : BitVec 32 := BitVec.ofNat 32 (i 1).val
  let c7_i32_13 : BitVec 32 := 7#32
  let v25 : BitVec 1 := Scalar.cmpi .eq arg1 c7_i32_13
  let v26 : BitVec 1 := Scalar.andi v24 v25
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  reducesTo_S8x128_S_d0_1 : S8x128.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S256x8192 : Shape := ⟨2, ![256, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S256x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_call3_v0 : Ref sig .tc := ⟨.hbm, 31, rfl⟩
abbrev main_call3_cst : Ref sig .tc := ⟨.hbm, 32, rfl⟩
abbrev main_call3_v1 : Ref sig .tc := ⟨.hbm, 33, rfl⟩
abbrev main_call3_v2 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Conds.lean ====
/-
  The kernel body's two branches, as facts about the grid. The body clears its accumulator when both grid
  coordinates are zero and copies it to the output block when both are seven; on the 8 × 8 grid, walked row-major,
  those are the first point and the last. Also: where each window is idle, and that no point before the last
  writes the output block back.
-/
import proofs.«157451_j90563680404074_1_alg».proof.Proof.Gen.Kernel.Launch
import proofs.«157451_j90563680404074_1_alg».proof.Proof.Gen.Kernel.Skeleton
import proofs.«157451_j90563680404074_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

/-- The accumulator is cleared here: both coordinates are zero (the body's first conditional, its scalar chain
    written out over the coordinates). -/
abbrev isFirst (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- The accumulator is copied to the output block here: both coordinates are seven (the body's second conditional). -/
abbrev isLast (i : grid0.Coords) : Prop := k0_cond2 i = 1#1

/-- Row-major over the 8 × 8 grid, the point with both coordinates zero is point 0, -/
theorem isFirst_iff : ∀ t : Fin cfg0.N, isFirst (grid0.coords t) ↔ t.val = 0 :=
  (by decide +kernel : ∀ t : Fin grid0.N, isFirst (grid0.coords t) ↔ t.val = 0)

/-- and the one with both coordinates seven is point 63. -/
theorem isLast_iff : ∀ t : Fin cfg0.N, isLast (grid0.coords t) ↔ t.val = 63 :=
  (by decide +kernel : ∀ t : Fin grid0.N, isLast (grid0.coords t) ↔ t.val = 63)

/-- The three input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The output window is idle at every point but the last, where the body stores into it. -/
theorem idle3_of_not_last : ∀ t : Fin cfg0.N, ¬ isLast (grid0.coords t) → cfg0.idle 3 (grid0.coords t) = true := by decide +kernel
theorem live3_of_last : ∀ t : Fin cfg0.N, isLast (grid0.coords t) → cfg0.idle 3 (grid0.coords t) = false := by decide +kernel

/-- No point before the last writes the output block back. -/
theorem noFlush3_of_not_last : ∀ t : Fin cfg0.N, ¬ isLast (grid0.coords t) → (cfg0.win 3).flush t = false := by decide +kernel
theorem flush3_of_last : ∀ t : Fin cfg0.N, isLast (grid0.coords t) → (cfg0.win 3).flush t = true := by decide +kernel

/-- The output window is never fetched. -/
theorem noFetch3 : ∀ t : Fin cfg0.N, (cfg0.win 3).fetch t = false := by decide +kernel

end Cert.Kernel.Hand

end
-- ==== Proof.K.Data.lean ====
/-
  What the kernel region works on, as data. The host operations before the region leave the normalised anchor
  (cast to bf16) in one array, which the region reads through TWO windows — the row tile and the column tile of a
  grid point — beside the similarity matrix's tile. The body keeps one (8, 128) accumulator in scratch: cleared at
  the first point, at every point increased in every lane by that point's tile sum, copied to the output block at
  the last point. Here: the buffers' contents after each host stretch, the three input blocks of a point, the
  accumulator's contents after each point (by recursion on the point), and the region's proof data — each window's
  staging contents after the body, the accumulator as the invariant between points, and how the one shared array
  is dealt to its two windows (half each).
-/
import proofs.«157451_j90563680404074_1_alg».proof.Proof.K.Conds
import Idealize.ShloMosaic.Lib.Pipeline.Kit
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers after each host stretch before the region -/

/-- Core `c`'s buffers at launch, as the host operations' valuation. -/
abbrev W0 (c : Dev nD) : Valuation τ sig (Elt F) := fun b => m (c, b)
/-- After each of the nine stretches before the region, in order. -/
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def W6 (c : Dev nD) : Valuation τ sig (Elt F) := StableHlo.after hostOps0_5 (W5 m c)
def W7 (c : Dev nD) : Valuation τ sig (Elt F) := StableHlo.after hostOps0_6 (W6 m c)
def W8 (c : Dev nD) : Valuation τ sig (Elt F) := StableHlo.after hostOps0_7 (W7 m c)
/-- When the region is entered. -/
def W9 (c : Dev nD) : Valuation τ sig (Elt F) := StableHlo.after hostOps0_8 (W8 m c)

/-- The same read at a TensorCore reference. -/
abbrev V (c : Dev nD) (b : Ref sig .tc) : Buf (Elt F) ((c : Thread nD τ).loc b) := W9 m c (Proc.devRef .tc b)

/-! ## A point's input blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the normalised anchor a point's ROW tile covers, -/
abbrev rowBlk (c : Dev nD) (t : Fin cfg0.N) : Vec F S1024x256 .bf16 := iblk m c 0 t
/-- the 1024 rows its COLUMN tile covers, -/
abbrev colBlk (c : Dev nD) (t : Fin cfg0.N) : Vec F S1024x256 .bf16 := iblk m c 1 t
/-- and the similarity matrix's 1024 × 1024 tile there. -/
abbrev simBlk (c : Dev nD) (t : Fin cfg0.N) : Vec F S1024x1024 .f32 := iblk m c 2 t

/-! ## The accumulator, point by point -/

/-- The scratch accumulator, a whole scoped buffer of the kernel's own. -/
abbrev scM : Memref sig .tc .vmem S8x128 .f32 := Memref.whole cc0_scratch0

/-- What the accumulator holds after point `n`: at the first point the body's update of the cleared accumulator,
    at a later point its update of what the point before left. -/
def accAt (c : Dev nD) : ℕ → Vec F S8x128 .f32
  | 0 => k0_pay2 (rowBlk m c ⟨0, by decide⟩) (colBlk m c ⟨0, by decide⟩) (simBlk m c ⟨0, by decide⟩) (k0_pay1 (F := F))
  | n + 1 =>
    if h : n + 1 < cfg0.N then k0_pay2 (rowBlk m c ⟨n + 1, h⟩) (colBlk m c ⟨n + 1, h⟩) (simBlk m c ⟨n + 1, h⟩) (accAt c n)
    else accAt c n

/-- The invariant between points: before the first point the accumulator at anything, after point `n` at `accAt n`. -/
def phi (c : Dev nD) : ℕ → sProp 𝕄
  | 0 => iprop(∃ d, owns (c : Thread nD τ) scM fullShare d)
  | n + 1 => owns (c : Thread nD τ) scM fullShare (accAt m c n)

/-! ## The region's proof data -/

/-- On core `c`: the arrays at their region-entry contents; each input window's staging buffer left holding its
    block, the output window's the accumulator; the accumulator between points; the shared array half to each of
    its two windows, the similarity matrix whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val
  Φ t := phi m c t.val
  q w := match w with
    | ⟨0, _⟩ => fullShare.left
    | ⟨1, _⟩ => fullShare.right
    | ⟨2, _⟩ => fullShare
    | ⟨3, _⟩ => fullShare
  owed _ := 0

/-! ## The buffers when the region is left -/

/-- As the region found them, but for the kernel's result array, which holds what the write-backs left
    (the last point's copy of the accumulator). The nine host operations after the region run from here. -/
def Wexit (c : Dev nD) : Valuation τ sig (Elt F) :=
  Function.update (W9 m c) (Proc.devRef .tc main_v20) ((dats m 0 c).arrAt 3 cfg0.N)

end Cert.Kernel.Hand

end
-- ==== Proof.K.Body.lean ====
/-
  The kernel body run once per control case, at symbolic staging memrefs and contents. Every point multiplies the
  row tile by the column tile (contracting the 256 features), subtracts the similarity tile, squares, sums, and adds
  the sum into every lane of the (8, 128) accumulator. The first point clears the accumulator before that; the last
  point afterwards copies it to the output block. So from the three input blocks `x0 x1 x2` and the accumulator at
  `s` the body leaves the accumulator at `k0_pay2 x0 x1 x2 s` (the skeleton's name for that update), with
  `s := k0_pay1` (the cleared accumulator) at the first point, and the inputs as they were.
-/
import proofs.«157451_j90563680404074_1_alg».proof.Proof.K.Conds
import Idealize.ShloMosaic.Lib.Pipeline.Kit
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores

Every load and store of the body is of a WHOLE staging buffer: the rectangle at the origin with the buffer's own
extents. Through it a load reads the buffer's contents, a store leaves its payload whatever was there, and a load
after such a store reads the payload back. -/

/-- The origin of a whole-block rectangle of rank two, written as the pair of zeros, is zero at both coordinates. -/
theorem body_origin2 : (![0, 0] : Fin 2 → Nat) = fun _ => 0 := funext fun a => by fin_cases a <;> rfl

/-- A load of the whole (1024, 256) block, from a buffer that reads `X`, reads `X`. -/
theorem body_readWhole_S1024x256 (M : Memref sig .tc .vmem S1024x256 .bf16) (h : M.IsWhole) (X : Vec F S1024x256 .bf16) :
    View.readAt (Elt F) M.view (Rect.unit (s := S1024x256) ![0, 0] S1024x256.size inb_S1024x256_S1024x256_0_0).toLoadRect (h.unread X) = X := by
  rw [View.readAt_eq_ld, h.read_unread]; exact View.ld_unit_zero (S := S1024x256) body_origin2 _ X

/-- A load of the whole (1024, 1024) block, from a buffer that reads `X`, reads `X`. -/
theorem body_readWhole_S1024x1024 (M : Memref sig .tc .vmem S1024x1024 .f32) (h : M.IsWhole) (X : Vec F S1024x1024 .f32) :
    View.readAt (Elt F) M.view (Rect.unit (s := S1024x1024) ![0, 0] S1024x1024.size inb_S1024x1024_S1024x1024_0_0).toLoadRect (h.unread X) = X := by
  rw [View.readAt_eq_ld, h.read_unread]; exact View.ld_unit_zero (S := S1024x1024) body_origin2 _ X

/-- A load of the whole (8, 128) block, from a buffer that reads `X`, reads `X`. -/
theorem body_readWhole_S8x128 (M : Memref sig .tc .vmem S8x128 .f32) (h : M.IsWhole) (X : Vec F S8x128 .f32) :
    View.readAt (Elt F) M.view (Rect.unit (s := S8x128) ![0, 0] S8x128.size inb_S8x128_S8x128_0_0).toLoadRect (h.unread X) = X := by
  rw [View.readAt_eq_ld, h.read_unread]; exact View.ld_unit_zero (S := S8x128) body_origin2 _ X

/-- A store of the whole (8, 128) block, made last, leaves its payload: the buffer then reads the payload,
    whatever it held and whatever was stored before. -/
theorem body_read_storeWhole_S8x128 (M : Memref sig .tc .vmem S8x128 .f32) (f : M.view.ty.Contents (Elt F)) (w : Vec F S8x128 .f32)
    (L : List (View.Piece (Elt F) S8x128 .f32)) :
    View.read (Elt F) M.view (M.view.writes (Elt F) f
      ((⟨Rect.unit (s := S8x128) ![0, 0] S8x128.size inb_S8x128_S8x128_0_0, w⟩ : View.Piece (Elt F) S8x128 .f32) :: L)) = w := by
  have cov : ∀ y : S8x128.Idx, ∃ p ∈ ((⟨Rect.unit (s := S8x128) ![0, 0] S8x128.size inb_S8x128_S8x128_0_0, w⟩ :
      View.Piece (Elt F) S8x128 .f32) :: L), y ∈ p.1.set :=
    fun y => ⟨⟨Rect.unit (s := S8x128) ![0, 0] S8x128.size inb_S8x128_S8x128_0_0, w⟩, List.mem_cons_self,
      View.mem_set_unit_zero (S := S8x128) body_origin2 inb_S8x128_S8x128_0_0 y⟩
  rw [View.read_writes_eq_canon M.view f _ cov]
  exact View.canon_cons_unit_zero (S := S8x128) body_origin2 _ w L

/-- A load of the whole (8, 128) block, made after one store of the whole block, reads that store's payload. -/
theorem body_readBack_S8x128 (M : Memref sig .tc .vmem S8x128 .f32) (w : Vec F S8x128 .f32) :
    M.view.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero (S := S8x128) M.view body_origin2 inb_S8x128_S8x128_0_0 w

/-! ## The body, case by case -/

/-- THE FIRST POINT: the accumulator, found at anything, is cleared and then updated. -/
theorem runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : isFirst i) (hc1 : ¬ isLast i)
    (x0 x1 : Vec F S1024x256 .bf16) (x2 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg6 fullShare (k0_pay2 x0 x1 x2 (k0_pay1 (F := F)))) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%d6, %f6, %hf6, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap
  · iexact H6
  · ipureintro
    sl_unfold_run_names
    refine (body_read_storeWhole_S8x128 arg6 _ _ _).trans ?_
    rw [body_readWhole_S1024x256 arg2 harg2 x0, body_readWhole_S1024x256 arg3 harg3 x1, body_readWhole_S1024x1024 arg4 harg4 x2,
      body_readBack_S8x128 arg6 (k0_pay1 (F := F))]

/-- A POINT THAT IS NEITHER: the accumulator at `s` is updated. -/
theorem runMid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : ¬ isFirst i) (hc1 : ¬ isLast i)
    (x0 x1 : Vec F S1024x256 .bf16) (x2 : Vec F S1024x1024 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg6 fullShare (k0_pay2 x0 x1 x2 s)) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap
  · iexact H6
  · ipureintro
    refine (body_read_storeWhole_S8x128 arg6 _ _ []).trans ?_
    rw [body_readWhole_S1024x256 arg2 harg2 x0, body_readWhole_S1024x256 arg3 harg3 x1, body_readWhole_S1024x1024 arg4 harg4 x2,
      body_readWhole_S8x128 arg6 harg6 s]

/-- THE LAST POINT: the accumulator at `s` is updated and then copied to the output block, found at anything. -/
theorem runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : ¬ isFirst i) (hc1 : isLast i)
    (x0 x1 : Vec F S1024x256 .bf16) (x2 : Vec F S1024x1024 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k0_pay2 x0 x1 x2 s) ∗ owns (c : Thread nD τ) arg6 fullShare (k0_pay2 x0 x1 x2 s)) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%d5, %f5, %hf5, H5⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; swap
    · iexact H5
    · ipureintro
      refine (body_read_storeWhole_S8x128 arg5 _ _ []).trans ?_
      sl_unfold_run_names
      refine (body_readBack_S8x128 arg6 _).trans ?_
      rw [body_readWhole_S1024x256 arg2 harg2 x0, body_readWhole_S1024x256 arg3 harg3 x1, body_readWhole_S1024x1024 arg4 harg4 x2,
        body_readWhole_S8x128 arg6 harg6 s]
  iexists _; isplitr; swap
  · iexact H6
  · ipureintro
    sl_unfold_run_names
    refine (body_read_storeWhole_S8x128 arg6 _ _ []).trans ?_
    rw [body_readWhole_S1024x256 arg2 harg2 x0, body_readWhole_S1024x256 arg3 harg3 x1, body_readWhole_S1024x1024 arg4 harg4 x2,
      body_readWhole_S8x128 arg6 harg6 s]

end Cert.Kernel.Hand

end
-- ==== Proof.K.Oblig.lean ====
/-
  The region's body obligation: at every grid point, from the invariant (the accumulator as the point before left
  it) and each window's staging buffer as the pipeline hands it over — an input window's holding its block of the
  array whether or not this point fetched it, the output window's holding whatever it held — the body runs to the
  invariant at the next point and the buffers as the proof data say: by cases first / neither / last point.
-/
import proofs.«157451_j90563680404074_1_alg».proof.Proof.K.Data
import proofs.«157451_j90563680404074_1_alg».proof.Proof.K.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The proof data's fields, read off their definition: each array at its region-entry contents, -/
theorem A_eq (c : Dev nD) (w : Fin cfg0.W) : (dats m 0 c).A w = V m c (Pipeline.arrRef spec0 w) := by
  dsimp only [dats]
/-- each input window's staging buffer left at its block, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
/-- and the output window's at the accumulator after the point. -/
theorem after_out (c : Dev nD) (t : Fin cfg0.N) : (dats m 0 c).after 3 t = accAt m c t.val := by dsimp only [dats]

/-- What a fetch reads at a point is the window's block of its array as the region finds it. -/
theorem blockOf_eq (c : Dev nD) (w : Fin cfg0.W) (t : Fin cfg0.N) : (dats m 0 c).blockOf w t = iblk m c w t := by
  unfold Dat.blockOf iblk; rw [A_eq]

/-- No input window's block is cut by its array's edge (the tiles divide the array): a fetch fills the whole staging
    buffer with the block, whatever it held. -/
theorem fetched_in0 (c : Dev nD) (t : Fin cfg0.N) (d) : (dats m 0 c).fetched 0 t d = iblk m c 0 t := by
  unfold Dat.fetched; rw [blockOf_eq]; rfl
theorem fetched_in1 (c : Dev nD) (t : Fin cfg0.N) (d) : (dats m 0 c).fetched 1 t d = iblk m c 1 t := by
  unfold Dat.fetched; rw [blockOf_eq]; rfl
theorem fetched_in2 (c : Dev nD) (t : Fin cfg0.N) (d) : (dats m 0 c).fetched 2 t d = iblk m c 2 t := by
  unfold Dat.fetched; rw [blockOf_eq]; rfl

/-- An input window's current staging buffer holds its block at every point, fetched there or not (a window whose
    block index has not moved keeps what the earlier fetch brought). -/
theorem before_in0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t :=
    fun t => by rw [after_in0, blockOf_eq]
  rw [(dats m 0 c).before_in_eq_fetched 0 rfl (fun _ => rfl) (fun _ _ _ => rfl) hkeep t d]
  exact fetched_in0 m c t d
theorem before_in1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t :=
    fun t => by rw [after_in1, blockOf_eq]
  rw [(dats m 0 c).before_in_eq_fetched 1 rfl (fun _ => rfl) (fun _ _ _ => rfl) hkeep t d]
  exact fetched_in1 m c t d
theorem before_in2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t :=
    fun t => by rw [after_in2, blockOf_eq]
  rw [(dats m 0 c).before_in_eq_fetched 2 rfl (fun _ => rfl) (fun _ _ _ => rfl) hkeep t d]
  exact fetched_in2 m c t d

/-- The grid has 64 points. -/
theorem lt64 (t : Fin cfg0.N) : t.val < 64 := lt_of_lt_of_eq t.isLt (show cfg0.N = 64 from N_0)

/-- The output window's staging buffer is untouched up to the last point: it holds what it held at entry. -/
theorem before_out (c : Dev nD) (t : Fin cfg0.N) (d) : (dats m 0 c).before 3 t d = d := by
  induction hn : t.val using Nat.strong_induction_on generalizing t with
  | _ n ih =>
    subst hn
    by_cases h0 : t.val = 0
    · exact (dats m 0 c).before_out_reset 3 rfl t (.inl h0) d
    · have hN := lt64 t
      have hnl : ¬ isLast (grid0.coords (⟨t.val - 1, Nat.lt_of_le_of_lt (Nat.sub_le _ _) t.isLt⟩ : Fin cfg0.N)) := fun h => by
        have := (isLast_iff _).mp h
        simp only at this
        omega
      rw [(dats m 0 c).before_of_pos 3 t h0 (noFetch3 t), noFlush3_of_not_last _ hnl, if_neg Bool.false_ne_true]
      unfold Dat.left
      rw [idle3_of_not_last _ hnl]
      exact ih (t.val - 1) (by omega) _ rfl

/-- The invariant after a point is the accumulator at what that point left, -/
theorem Phi_succ (c : Dev nD) (t : Fin cfg0.N) :
    (dats m 0 c).Φ t.succ = owns (c : Thread nD τ) scM fullShare (accAt m c t.val) := by
  dsimp only [dats]; rw [Fin.val_succ]; rfl
/-- before the first point the accumulator at anything, -/
theorem Phi_first (c : Dev nD) (t : Fin cfg0.N) (h0 : t.val = 0) :
    (dats m 0 c).Φ t.castSucc = iprop(∃ d, owns (c : Thread nD τ) scM fullShare d) := by
  dsimp only [dats]; rw [Fin.coe_castSucc, h0]; rfl
/-- and before a later point the accumulator at what the point before left. -/
theorem Phi_later (c : Dev nD) (t : Fin cfg0.N) (n : ℕ) (hn : t.val = n + 1) :
    (dats m 0 c).Φ t.castSucc = owns (c : Thread nD τ) scM fullShare (accAt m c n) := by
  dsimp only [dats]; rw [Fin.coe_castSucc, hn]; rfl

/-- The accumulator after the first point: the update of the cleared accumulator by the point's blocks. -/
theorem accAt_first (c : Dev nD) (t : Fin cfg0.N) (h0 : t.val = 0) :
    accAt m c t.val = k0_pay2 (rowBlk m c t) (colBlk m c t) (simBlk m c t) (k0_pay1 (F := F)) := by
  obtain ⟨k, hk⟩ := t
  cases h0
  rfl
/-- The accumulator after a later point: the update, by the point's blocks, of what the point before left. -/
theorem accAt_later (c : Dev nD) (t : Fin cfg0.N) (n : ℕ) (hn : t.val = n + 1) :
    accAt m c t.val = k0_pay2 (rowBlk m c t) (colBlk m c t) (simBlk m c t) (accAt m c n) := by
  obtain ⟨k, hk⟩ := t
  cases hn
  exact dif_pos hk

/-- What the body leaves in an input window's staging buffer: the window's block, as it found it. -/
theorem leaves_in0 (c : Dev nD) (t : Fin cfg0.N) :
    (dats m 0 c).leavesExact 0 t = owns (c : Thread nD τ) (st0_0 t) fullShare (iblk m c 0 t) := by
  unfold Dat.leavesExact; rw [live0 t, after_in0]
theorem leaves_in1 (c : Dev nD) (t : Fin cfg0.N) :
    (dats m 0 c).leavesExact 1 t = owns (c : Thread nD τ) (st0_1 t) fullShare (iblk m c 1 t) := by
  unfold Dat.leavesExact; rw [live1 t, after_in1]
theorem leaves_in2 (c : Dev nD) (t : Fin cfg0.N) :
    (dats m 0 c).leavesExact 2 t = owns (c : Thread nD τ) (st0_2 t) fullShare (iblk m c 2 t) := by
  unfold Dat.leavesExact; rw [live2 t, after_in2]
/-- What the body leaves in the output window's staging buffer: before the last point what it held, -/
theorem leaves_out_idle (c : Dev nD) (t : Fin cfg0.N) (h : ¬ isLast (grid0.coords t)) :
    (dats m 0 c).leavesExact 3 t = iprop(∃ d, owns (c : Thread nD τ) (st0_3 t) fullShare d) := by
  rw [Dat.leavesExact_idle _ 3 t (idle3_of_not_last t h) (noFlush3_of_not_last t h)]
  simp only [before_out]
/-- at the last point the accumulator. -/
theorem leaves_out_live (c : Dev nD) (t : Fin cfg0.N) (h : isLast (grid0.coords t)) :
    (dats m 0 c).leavesExact 3 t = owns (c : Thread nD τ) (st0_3 t) fullShare (accAt m c t.val) := by
  unfold Dat.leavesExact; rw [live3_of_last t h, after_out]

/-- THE BODY AT A POINT, the windows one by one: from the invariant, what the core owes and each window's current
    staging buffer as the pipeline hands it over, the body runs to the invariant at the next point, the same owed,
    and each buffer as the proof data say. By cases: the first point, the last, neither. -/
theorem step (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) fun _ =>
          iprop((dats m 0 c).Φ t.succ ∗ (dats m 0 c).owesAt () t.succ
            ∗ (dats m 0 c).leavesExact 0 t ∗ (dats m 0 c).leavesExact 1 t ∗ (dats m 0 c).leavesExact 2 t
            ∗ (dats m 0 c).leavesExact 3 t) := by
  have hN := lt64 t
  simp only [before_in0, before_in1, before_in2, before_out]
  rw [leaves_in0, leaves_in1, leaves_in2, Phi_succ]
  rw [show (dats m 0 c).owesAt () t.succ = (dats m 0 c).owesAt () t.castSucc from rfl]
  by_cases h0 : t.val = 0
  · -- the first point: the accumulator is found at anything, the output window idle
    have hc0 : isFirst (grid0.coords t) := (isFirst_iff t).mpr h0
    have hc1 : ¬ isLast (grid0.coords t) := fun h => by have := (isLast_iff t).mp h; omega
    rw [leaves_out_idle m c t hc1, Phi_first m c t h0, accAt_first m c t h0]
    iintro ⟨⟨%s, HS⟩, Ho, ⟨%d0, H0⟩, ⟨%d1, H1⟩, ⟨%d2, H2⟩, ⟨%d3, H3⟩⟩
    iapply (runFirst c (grid0.coords t) _ _ _ _ _ _ _ _ _ _ hc0 hc1 (rowBlk m c t) (colBlk m c t) (simBlk m c t) Set.univ _)
    isplitl [H0]; · iexact H0
    isplitl [H1]; · iexact H1
    isplitl [H2]; · iexact H2
    isplitl [HS]; · iexists s; iexact HS
    iintro ⟨H0, H1, H2, HS⟩
    isplitl [HS]; · iexact HS
    isplitl [Ho]; · iexact Ho
    isplitl [H0]; · iexact H0
    isplitl [H1]; · iexact H1
    isplitl [H2]; · iexact H2
    iexists d3; iexact H3
  · -- a later point: the accumulator is found at what the point before left
    obtain ⟨n, hn⟩ : ∃ n, t.val = n + 1 := ⟨t.val - 1, by omega⟩
    have hc0 : ¬ isFirst (grid0.coords t) := fun h => h0 ((isFirst_iff t).mp h)
    rw [Phi_later m c t n hn, accAt_later m c t n hn]
    by_cases h1 : t.val = 63
    · -- the last point: the output window takes the accumulator
      have hc1 : isLast (grid0.coords t) := (isLast_iff t).mpr h1
      rw [leaves_out_live m c t hc1, accAt_later m c t n hn]
      iintro ⟨HS, Ho, ⟨%d0, H0⟩, ⟨%d1, H1⟩, ⟨%d2, H2⟩, ⟨%d3, H3⟩⟩
      iapply (runLast c (grid0.coords t) _ _ _ _ _ _ _ _ _ _ hc0 hc1 (rowBlk m c t) (colBlk m c t) (simBlk m c t) (accAt m c n) Set.univ _)
      isplitl [H0]; · iexact H0
      isplitl [H1]; · iexact H1
      isplitl [H2]; · iexact H2
      isplitl [H3]; · iexists d3; iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · -- neither: the output window idle
      have hc1 : ¬ isLast (grid0.coords t) := fun h => h1 ((isLast_iff t).mp h)
      rw [leaves_out_idle m c t hc1]
      iintro ⟨HS, Ho, ⟨%d0, H0⟩, ⟨%d1, H1⟩, ⟨%d2, H2⟩, ⟨%d3, H3⟩⟩
      iapply (runMid c (grid0.coords t) _ _ _ _ _ _ _ _ _ _ hc0 hc1 (rowBlk m c t) (colBlk m c t) (simBlk m c t) (accAt m c n) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      isplitl [H2]; · iexact H2
      iexists d3; iexact H3

/-- THE BODY OBLIGATION of the region's proof data. -/
theorem body_obligation (c : Dev nD) : BodyObligation (dats m 0 c) (defs₀ (F := F)) Variants.none () Set.univ := fun t => by
  rw [bigSep_W0, bigSep_W0]
  exact step m c t

end Cert.Kernel.Hand

end
-- ==== Proof.K.Entry.lean ====
/-
  The region's entry and exit, as entailments between the thread state the host stretches run in (every unscoped
  buffer held whole at a valuation) and what the region takes: the three arrays its four windows stage, the rest
  bypassing it. The normalised anchor's array is staged by TWO windows, so its buffer is dealt to them half and half
  at entry and the halves are joined again at exit; the similarity matrix goes in and out whole; the result array
  comes out at what the last point's write-back left, which is the one place where the valuation after the region
  differs from the one before it. Also: one buffer's contents read off a final state that holds the buffers.
-/
import proofs.«157451_j90563680404074_1_alg».proof.Proof.K.Data
import Idealize.ShloMosaic.Lib.Pipeline.Frame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The three arrays the region's windows stage: the normalised anchor (twice), the similarity matrix, the result. -/
def arrSet : Finset (DevRef τ sig) := {Proc.devRef .tc main_v19, Proc.devRef .tc main_arg3, Proc.devRef .tc main_v20}

/-- What bypasses the region on core `c`: every other unscoped buffer, held as the region found it. -/
def bypass (c : Dev nD) : sProp 𝕄 :=
  StableHlo.held (c : Thread nD τ) (Pipeline.ucRefs τ sig \ arrSet) (W9 m c)

/-- The region's arrays at contents `X`: every window's array is a whole buffer, so each is held over all its elements. -/
theorem entry_arrays_univ (c : Dev nD) (X : (w : Fin cfg0.W) → Buf (Elt F) ((cfg0.win w).arr.view.loc (c : Thread nD τ))) :
    ((dats m 0 c).arrays X : sProp 𝕄)
      = bigSep Finset.univ fun w : Fin cfg0.W => ((cfg0.win w).arr.view.loc (c : Thread nD τ) ↦{(dats m 0 c).share w} X w : sProp 𝕄) := by
  unfold Dat.arrays
  exact bigSep_congr fun w _ => by rw [(arr_whole0 w).set_eq_univ]

/-- Buffer `b` of core `c`, all its elements, at share `q` and at contents `X`. -/
abbrev entry_buf (c : Dev nD) (b : Ref sig .tc) (q : PosShare TreeShare) (X : Buf (Elt F) ((c : Thread nD τ).loc b)) : sProp 𝕄 :=
  ((c : Thread nD τ).loc b ↦{q} X)

/-- Holding the three arrays at a valuation is holding each of them whole at the full share, at what the valuation
    gives it. -/
theorem entry_held_arrSet (c : Dev nD) (W : Valuation τ sig (Elt F)) :
    (StableHlo.held (c : Thread nD τ) arrSet W : sProp 𝕄)
      = iprop(entry_buf c main_v19 fullShare (W (Proc.devRef .tc main_v19))
          ∗ entry_buf c main_arg3 fullShare (W (Proc.devRef .tc main_arg3))
          ∗ entry_buf c main_v20 fullShare (W (Proc.devRef .tc main_v20))) := by
  unfold StableHlo.held arrSet
  rw [bigSep_insert (by decide), bigSep_insert (by decide), bigSep_singleton]
  rfl

/-- The three arrays are unscoped buffers of the TensorCore. -/
theorem entry_arrSet_sub : (arrSet : Finset (DevRef τ sig)) ⊆ Pipeline.ucRefs τ sig := by decide

/-- A buffer at the full share is its left half beside its right half, at the same contents. -/
theorem entry_halves (c : Dev nD) (b : Ref sig .tc) (X : Buf (Elt F) ((c : Thread nD τ).loc b)) :
    (entry_buf c b fullShare X : sProp 𝕄) ⊣⊢ iprop(entry_buf c b fullShare.left X ∗ entry_buf c b fullShare.right X) :=
  pointsTo_share (PosShare.mem_left_op_right fullShare)

/-- ENTRY: the unscoped buffers as the host stretches left them are the region's arrays at their entry contents —
    the shared array half to window 0 and half to window 1 — beside what bypasses the region. -/
theorem entry_split (c : Dev nD) :
    (StableHlo.held (c : Thread nD τ) (Pipeline.ucRefs τ sig) (W9 m c) : sProp 𝕄)
      ⊢ iprop((dats m 0 c).arrays ((dats m 0 c).arrAt · 0) ∗ bypass m c) := by
  -- The unscoped buffers are the three arrays and the rest; the arrays' four windows one by one.
  rw [StableHlo.held_sub_split _ entry_arrSet_sub, entry_held_arrSet, entry_arrays_univ, bigSep_W0]
  show _ ⊢ iprop((entry_buf c main_v19 fullShare.left (V m c main_v19) ∗ entry_buf c main_v19 fullShare.right (V m c main_v19)
      ∗ entry_buf c main_arg3 fullShare (V m c main_arg3) ∗ entry_buf c main_v20 fullShare (V m c main_v20))
      ∗ StableHlo.held (c : Thread nD τ) (Pipeline.ucRefs τ sig \ arrSet) (W9 m c))
  -- The shared array's full share is dealt out as its left half beside its right half; the rest is re-bracketing.
  refine (sep_mono (sep_mono (entry_halves c main_v19 _).1 .rfl) .rfl).trans ?_
  iintro ⟨⟨⟨Hl, Hr⟩, H3, H20⟩, Hby⟩
  isplitl [Hl Hr H3 H20]
  · isplitl [Hl]; · iexact Hl
    isplitl [Hr]; · iexact Hr
    isplitl [H3]; · iexact H3
    iexact H20
  iexact Hby

/-- EXIT: the arrays at their final contents — the inputs as they were, the two halves of the shared array joined
    again, the result array as the write-backs left it — beside what bypassed the region are the unscoped buffers at
    the valuation the closing host operations start from. -/
theorem exit_join (c : Dev nD) :
    iprop((dats m 0 c).arrays ((dats m 0 c).arrAt · cfg0.N) ∗ bypass m c)
      ⊢ (StableHlo.held (c : Thread nD τ) (Pipeline.ucRefs τ sig) (Wexit m c) : sProp 𝕄) := by
  -- The exit valuation is the entry one but at the result array, where it is that array's final contents.
  have h20 : Proc.devRef (τ := τ) .tc main_v20 ∈ (arrSet : Finset (DevRef τ sig)) := by decide
  have hrest : (StableHlo.held (c : Thread nD τ) (Pipeline.ucRefs τ sig \ arrSet) (Wexit m c) : sProp 𝕄) = bypass m c :=
    StableHlo.held_congr _ fun b hb => Function.update_of_ne (fun e => (Finset.mem_sdiff.mp hb).2 (by rw [e]; exact h20)) _ _
  have e19 : Wexit m c (Proc.devRef .tc main_v19) = V m c main_v19 :=
    Function.update_of_ne (StableHlo.devRef_ne_of_ne (by decide)) _ _
  have e3 : Wexit m c (Proc.devRef .tc main_arg3) = V m c main_arg3 :=
    Function.update_of_ne (StableHlo.devRef_ne_of_ne (by decide)) _ _
  have e20 : Wexit m c (Proc.devRef .tc main_v20) = (dats m 0 c).arrAt 3 cfg0.N := Function.update_self _ _ _
  -- An input window's array is never written back: at the end it holds what it held at entry.
  have a0 : (dats m 0 c).arrAt 0 cfg0.N = V m c main_v19 := (dats m 0 c).arrAt_in 0 rfl _
  have a1 : (dats m 0 c).arrAt 1 cfg0.N = V m c main_v19 := (dats m 0 c).arrAt_in 1 rfl _
  have a2 : (dats m 0 c).arrAt 2 cfg0.N = V m c main_arg3 := (dats m 0 c).arrAt_in 2 rfl _
  rw [StableHlo.held_sub_split _ entry_arrSet_sub (Wexit m c), hrest, entry_held_arrSet, e19, e3, e20, entry_arrays_univ, bigSep_W0]
  show iprop((entry_buf c main_v19 fullShare.left ((dats m 0 c).arrAt 0 cfg0.N) ∗ entry_buf c main_v19 fullShare.right ((dats m 0 c).arrAt 1 cfg0.N)
      ∗ entry_buf c main_arg3 fullShare ((dats m 0 c).arrAt 2 cfg0.N) ∗ entry_buf c main_v20 fullShare ((dats m 0 c).arrAt 3 cfg0.N)) ∗ bypass m c) ⊢ _
  rw [a0, a1, a2]
  -- Re-bracket, then the two halves of the shared array are its full share again.
  refine BIBase.Entails.trans ?_ (sep_mono (sep_mono (entry_halves c main_v19 _).2 .rfl) .rfl)
  iintro ⟨⟨Hl, Hr, H3, H20⟩, Hby⟩
  isplitl [Hl Hr H3 H20]
  · isplitl [Hl Hr]
    · isplitl [Hl]; · iexact Hl
      iexact Hr
    isplitl [H3]; · iexact H3
    iexact H20
  iexact Hby

/-- Holding the unscoped buffers at a valuation beside a state's interpretation, that state's memory holds the
    valuation's contents at any one of them. -/
theorem held_read (c : Dev nD) (W : Valuation τ sig (Elt F)) (b : Ref sig .tc) (hb : Proc.devRef .tc b ∈ Pipeline.ucRefs τ sig)
    (s' : Phys nD τ sig (Elt F)) :
    iprop((StableHlo.held (c : Thread nD τ) (Pipeline.ucRefs τ sig) W : sProp 𝕄) ∗ SI s')
      ⊢ iprop(⌜s'.mem.mem ((c : Thread nD τ).loc b) = W (Proc.devRef .tc b)⌝
          ∗ (StableHlo.held (c : Thread nD τ) (Pipeline.ucRefs τ sig) W : sProp 𝕄) ∗ SI s') := by
  -- One buffer's points-to beside the others'.
  have key : (StableHlo.held (c : Thread nD τ) (Pipeline.ucRefs τ sig) W : sProp 𝕄)
      = iprop((((c : Thread nD τ).1, Proc.devRef .tc b) ↦{fullShare} W (Proc.devRef .tc b))
          ∗ StableHlo.held (c : Thread nD τ) ((Pipeline.ucRefs τ sig).erase (Proc.devRef .tc b)) W) := bigSep_erase hb
  rw [key]
  iintro ⟨⟨Hb, Hrest⟩, HSI⟩
  -- A points-to beside the state's interpretation says what the memory holds there.
  icombine HSI Hb gives %h
  isplitr
  · ipureintro; exact Buf.eq_of_forall_mem_univ h
  isplitl [Hb Hrest]
  · isplitl [Hb] <;> iassumption
  iexact HSI

end Cert.Kernel.Hand

end
-- ==== Proof.K.Args.lean ====
/-
  The arguments when the region is entered. None of the host operations before the region writes an argument
  array, so the region finds each as launched.
-/
import proofs.«157451_j90563680404074_1_alg».proof.Proof.K.Data
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every reference that some host operation before the region writes: the thirty-eight results of the nine
    stretches, in program order. No argument is among them. -/
private abbrev hostWritten : List (Ref sig .tc) :=
  [main_v0, main_cst, main_v1, main_v2, main_call0_v0, main_call0_cst, main_call0_v1, main_v3,
   main_v4, main_cst_0, main_v5, main_v6, main_call1_v0, main_call1_cst, main_call1_v1, main_v7,
   main_v8, main_cst_1, main_v9, main_v10, main_call2_cst, main_call2_v0, main_v11,
   main_cst_2, main_v12, main_cst_3, main_v13, main_call3_v0, main_call3_cst, main_call3_v1, main_call3_v2, main_v14,
   main_cst_4, main_v15, main_v16, main_v17, main_v18, main_v19]

/-- One reference of that list, as a one-element set of device buffers, lies within the list's device buffers. -/
private theorem single_sub_written {y : Ref sig .tc} (h : y ∈ hostWritten) :
    ({Proc.devRef .tc y} : Finset (DevRef τ sig)) ⊆ (hostWritten.map (Proc.devRef (τ := τ) .tc)).toFinset :=
  Finset.singleton_subset_iff.mpr (List.mem_toFinset.mpr (List.mem_map_of_mem h))

/-- A reference outside that list holds at the region's entry what it held at launch: each operation writes its one
    result, every result is in the list, so each of the nine stretches in turn leaves the reference alone. -/
private theorem kept (c : Dev nD) (r : Ref sig .tc) (hr : r ∉ hostWritten) :
    W9 m c (Proc.devRef .tc r) = W0 m c (Proc.devRef .tc r) := by
  unfold W9
  rw [StableHlo.after_of_writes_sub hostOps0_8 _ ⟨single_sub_written (by decide), single_sub_written (by decide), single_sub_written (by decide), single_sub_written (by decide), single_sub_written (by decide), single_sub_written (by decide)⟩ hr]
  unfold W8
  rw [StableHlo.after_of_writes_sub hostOps0_7 _ ⟨single_sub_written (by decide), single_sub_written (by decide), single_sub_written (by decide), single_sub_written (by decide), single_sub_written (by decide)⟩ hr]
  unfold W7
  rw [StableHlo.after_of_writes_sub hostOps0_6 _ ⟨single_sub_written (by decide), single_sub_written (by decide), single_sub_written (by decide), single_sub_written (by decide)⟩ hr]
  unfold W6
  rw [StableHlo.after_of_writes_sub hostOps0_5 _ ⟨single_sub_written (by decide), single_sub_written (by decide), single_sub_written (by decide)⟩ hr]
  unfold W5
  rw [StableHlo.after_of_writes_sub hostOps0_4 _ ⟨single_sub_written (by decide), single_sub_written (by decide), single_sub_written (by decide), single_sub_written (by decide)⟩ hr]
  unfold W4
  rw [StableHlo.after_of_writes_sub hostOps0_3 _ ⟨single_sub_written (by decide), single_sub_written (by decide), single_sub_written (by decide), single_sub_written (by decide)⟩ hr]
  unfold W3
  rw [StableHlo.after_of_writes_sub hostOps0_2 _ ⟨single_sub_written (by decide), single_sub_written (by decide), single_sub_written (by decide), single_sub_written (by decide)⟩ hr]
  unfold W2
  rw [StableHlo.after_of_writes_sub hostOps0_1 _ ⟨single_sub_written (by decide), single_sub_written (by decide), single_sub_written (by decide), single_sub_written (by decide)⟩ hr]
  unfold W1
  rw [StableHlo.after_of_writes_sub hostOps0 _ ⟨single_sub_written (by decide), single_sub_written (by decide), single_sub_written (by decide), single_sub_written (by decide)⟩ hr]

/-- No host operation before the region writes an argument: the region finds each as launched. -/
theorem V_arg0 (c : Dev nD) : V m c main_arg0 = m ((c.tc : Thread nD τ).loc main_arg0) :=
  kept m c main_arg0 (by decide)
theorem V_arg1 (c : Dev nD) : V m c main_arg1 = m ((c.tc : Thread nD τ).loc main_arg1) :=
  kept m c main_arg1 (by decide)
theorem V_arg2 (c : Dev nD) : V m c main_arg2 = m ((c.tc : Thread nD τ).loc main_arg2) :=
  kept m c main_arg2 (by decide)
theorem V_arg3 (c : Dev nD) : V m c main_arg3 = m ((c.tc : Thread nD τ).loc main_arg3) :=
  kept m c main_arg3 (by decide)

end Cert.Kernel.Hand

end
-- ==== Proof.K.Kept.lean ====
/-
  The arguments at the end. None of the nineteen host operations around the region writes an argument array, and
  the region's one change to the buffers is to its own result array; so after the closing operations each of the
  four arguments holds what it held at launch.
-/
import proofs.«157451_j90563680404074_1_alg».proof.Proof.K.Args
import Idealize.ShloMosaic.Lib.StableHlo.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The nine buffers the closing operations write: four constants and five results, the last being the
    program's result. -/
def kept_closingWrites : List (Ref sig .tc) :=
  [main_cst_5, main_v21, main_cst_6, main_v22, main_cst_7, main_v23, main_cst_8, main_v24, main_v25]

/-- A single reference of a list, as a device buffer, lies in the set of the list's device buffers. -/
theorem kept_single_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Each closing operation writes its one result buffer, which is among the nine. -/
theorem kept_closing_writes_sub :
    (hostOps1 : List (HloOp τ sig (Elt F))).Forall
      fun op => op.writes ⊆ (kept_closingWrites.map (Proc.devRef (τ := τ) .tc)).toFinset :=
  ⟨kept_single_sub (by decide), kept_single_sub (by decide), kept_single_sub (by decide), kept_single_sub (by decide),
    kept_single_sub (by decide), kept_single_sub (by decide), kept_single_sub (by decide), kept_single_sub (by decide),
    kept_single_sub (by decide)⟩

/-- A reference that is neither the kernel's result array nor one of the nine holds, after the closing operations,
    what the region found in it: the operations leave it alone, and the region changed the result array only. -/
theorem kept_unwritten (c : Dev nD) (b : Ref sig .tc) (hv : b ≠ main_v20) (hb : b ∉ kept_closingWrites) :
    StableHlo.after hostOps1 (Wexit m c) (Proc.devRef .tc b) = V m c b := by
  rw [StableHlo.after_of_writes_sub hostOps1 (Wexit m c) kept_closing_writes_sub hb]
  exact Function.update_of_ne (StableHlo.devRef_ne_of_ne hv) _ _

/-- After the closing host operations, run from the buffers as the region left them, each argument is as launched. -/
theorem final_arg0 (c : Dev nD) :
    StableHlo.after hostOps1 (Wexit m c) (Proc.devRef .tc main_arg0) = m ((c.tc : Thread nD τ).loc main_arg0) := by
  exact (kept_unwritten m c main_arg0 (by decide) (by decide)).trans (V_arg0 m c)
/-- The same for the second argument. -/
theorem final_arg1 (c : Dev nD) :
    StableHlo.after hostOps1 (Wexit m c) (Proc.devRef .tc main_arg1) = m ((c.tc : Thread nD τ).loc main_arg1) := by
  exact (kept_unwritten m c main_arg1 (by decide) (by decide)).trans (V_arg1 m c)
/-- The same for the third argument. -/
theorem final_arg2 (c : Dev nD) :
    StableHlo.after hostOps1 (Wexit m c) (Proc.devRef .tc main_arg2) = m ((c.tc : Thread nD τ).loc main_arg2) := by
  exact (kept_unwritten m c main_arg2 (by decide) (by decide)).trans (V_arg2 m c)
/-- The same for the fourth argument. -/
theorem final_arg3 (c : Dev nD) :
    StableHlo.after hostOps1 (Wexit m c) (Proc.devRef .tc main_arg3) = m ((c.tc : Thread nD τ).loc main_arg3) := by
  exact (kept_unwritten m c main_arg3 (by decide) (by decide)).trans (V_arg3 m c)

end Cert.Kernel.Hand

end
-- ==== Proof.K.Launch.lean ====
/-
  The launch: @main as a list of segments — the nine host stretches before the region, the region, the nine host
  operations after it — each entered from what the one before left. The region takes the normalised anchor's array
  for BOTH of its first two windows, half to each, the similarity matrix and the result array; everything else
  bypasses it. Its run: every weakly fair execution of @main terminates, nothing faulting, with the four argument
  arrays as launched and the result buffer at what the nine closing operations make of the buffers the region left.
-/
import proofs.«157451_j90563680404074_1_alg».proof.Proof.K.Oblig
import proofs.«157451_j90563680404074_1_alg».proof.Proof.K.Entry
import proofs.«157451_j90563680404074_1_alg».proof.Proof.K.Kept

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- No core owes another anything: no level is assigned. -/
abbrev L : GSem nD τ sig → Finset Unit := fun _ => ∅
/-- The level of a pair, were one assigned: none is. -/
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: that the core owes nothing. -/
abbrev R (c : Dev nD) : sProp 𝕄 := iprop(∃ W, owes (c : Thread nD τ) (0 : CellTallies nD τ sig Unit) W)

local notation "ℍ" => Pipeline.HostSeg (Name := ℕ) (U := UR sig nD τ) (pcfgs (F := F)) defs₀ Variants.none L lv

/-- A stretch of host operations over the unscoped buffers, run from a valuation: it leaves them at the stretch's
    fold of that valuation. -/
def hseg (ops : List (HloOp τ sig (Elt F))) (hsub : ops.Forall fun op => op.bufs ⊆ StableHlo.tcRefs τ sig)
    (hf : ∀ op ∈ ops, op.fresh = ∅) (V : Dev nD → Valuation τ sig (Elt F)) : ℍ :=
  Pipeline.HostSeg.ofOps _ _ _ _ _ (Pipeline.ucRefs τ sig) ops
    (fun op h => Pipeline.sub_ucRefs op ((List.forall_iff_forall_mem.mp hsub) op h)) hf V R

/-- The nine stretches before the region, each run from the valuation the one before left. The first: the first
    argument minus the second, the small constant added. -/
def seg0 : ℍ := hseg hostOps0 hostOps0_sub (by intro _ h; (repeat (cases h with | head => rfl | tail _ h => ?_)); exact nomatch h) (W0 m)
/-- That array's norm along each row. -/
def seg1 : ℍ := hseg hostOps0_1 hostOps0_1_sub (by intro _ h; (repeat (cases h with | head => rfl | tail _ h => ?_)); exact nomatch h) (W1 m)
/-- The first argument minus the third, the small constant added. -/
def seg2 : ℍ := hseg hostOps0_2 hostOps0_2_sub (by intro _ h; (repeat (cases h with | head => rfl | tail _ h => ?_)); exact nomatch h) (W2 m)
/-- That array's norm along each row. -/
def seg3 : ℍ := hseg hostOps0_3 hostOps0_3_sub (by intro _ h; (repeat (cases h with | head => rfl | tail _ h => ?_)); exact nomatch h) (W3 m)
/-- The two norms' difference, the margin added. -/
def seg4 : ℍ := hseg hostOps0_4 hostOps0_4_sub (by intro _ h; (repeat (cases h with | head => rfl | tail _ h => ?_)); exact nomatch h) (W4 m)
/-- Its maximum with zero. -/
def seg5 : ℍ := hseg hostOps0_5 hostOps0_5_sub (by intro _ h; (repeat (cases h with | head => rfl | tail _ h => ?_)); exact nomatch h) (W5 m)
/-- The sum of those over the rows divided by their number: the triplet term. -/
def seg6 : ℍ := hseg hostOps0_6 hostOps0_6_sub (by intro _ h; (repeat (cases h with | head => rfl | tail _ h => ?_)); exact nomatch h) (W6 m)
/-- The first argument's norm along each row, as a column. -/
def seg7 : ℍ := hseg hostOps0_7 hostOps0_7_sub (by intro _ h; (repeat (cases h with | head => rfl | tail _ h => ?_)); exact nomatch h) (W7 m)
/-- The first argument divided by that norm bounded below, cast to bf16: the array the region reads twice. -/
def seg8 : ℍ := hseg hostOps0_8 hostOps0_8_sub (by intro _ h; (repeat (cases h with | head => rfl | tail _ h => ?_)); exact nomatch h) (W8 m)
/-- The closing stretch, run from the buffers as the region left them: the result block's sum over its 1024
    entries divided by 1024, then by 2^26, times one, added to the triplet term. -/
def seg10 : ℍ := hseg hostOps1 hostOps1_sub (by intro _ h; (repeat (cases h with | head => rfl | tail _ h => ?_)); exact nomatch h) (Wexit m)

set_option backward.isDefEq.respectTransparency.types false in
/-- THE REGION: entered from the buffers as the ninth stretch left them — its three arrays into the pipeline, the
    shared one half to each of its two windows, everything else bypassing —, left with the result array at what the
    write-backs made of it and every other buffer as found. The accumulator is the kernel's own scoped buffer: it
    reaches the invariant from the region boundary and returns to it. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (Wexit m c) ∗ R c)
  X c := iprop(emp)
  Y c := iprop(emp)
  Z c := bypass m c
  hentry c := by
    iintro ⟨⟨Hh, HO⟩, -, -⟩
    ihave H := (entry_split m c) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    refine (show _ ⊢ (Pipeline.scopedRest (Ix := Unit) (Name := ℕ) (U := UR sig nD τ) (Lvl := ℕ) (Val := Elt F) spec0 c : sProp 𝕄) from by
      iintro ⟨-, -, Hr⟩; iexact Hr).trans ?_
    rw [scopedRest0_eq]
    show _ ⊢ iprop(∃ d, owns (c : Thread nD τ) scM fullShare d)
    iintro ⟨%f, Hf⟩
    iexists f
    rw [owns_whole]
    iexact Hf
  hout c := by
    have hΦ : (dats m 0 c).Φ (Fin.last cfg0.N) = owns (c : Thread nD τ) scM fullShare (accAt m c 63) := by
      show phi m c (Fin.last cfg0.N).val = _
      rw [Fin.val_last, show cfg0.N = 63 + 1 from N_0]; rfl
    have hr : (owns (c : Thread nD τ) scM fullShare (accAt m c 63) : sProp 𝕄)
        ⊢ Pipeline.scopedRest (Ix := Unit) (Name := ℕ) (U := UR sig nD τ) (Lvl := ℕ) (Val := Elt F) spec0 c := by
      rw [scopedRest0_eq, owns_whole]; iintro H; iexists _; iexact H
    refine (Entails.of_eq hΦ).trans ?_
    rw [Pipeline.ownSems0_none]
    iintro H
    isplitr; · iempintro
    isplitr; · iempintro
    iapply hr; iexact H
  hexit c := by
    iintro ⟨Ha, HO, -, Hz⟩
    imodintro
    isplitr [HO]
    · iapply (exit_join m c)
      isplitl [Ha]; · iexact Ha
      iexact Hz
    · unfold Pipeline.Dat.owesAt Pipeline.owesWithin
      icases HO with ⟨%W, -, HO⟩; iexists W; iexact HO

/-- @main as the list of the eleven. -/
def segs : List (Pipeline.Seg (pcfgs (F := F)) adm (dats m) () defs₀ Variants.none L lv) :=
  [.host (seg0 m), .host (seg1 m), .host (seg2 m), .host (seg3 m), .host (seg4 m), .host (seg5 m), .host (seg6 m),
    .host (seg7 m), .host (seg8 m), .region (reg0 m), .host (seg10 m)]

/-- On every core @main is the run of the eleven segments. -/
theorem main_wp (c : Dev nD) (Q : PUnit → sProp 𝕄) :
    wp frame (wpE defs (Variants.lift Variants.none) (c : Thread nD τ) none) Set.univ (Pipeline.Seg.run (segs m)) Q
      ⊢ wp frame (wpE defs (Variants.lift Variants.none) (c : Thread nD τ) none) Set.univ (main (F := F) c) Q := by
  rw [main_chain c, Pipeline.Seg.run_eq_chain]
  exact .rfl

end Launch

open Launch

set_option backward.isDefEq.respectTransparency.types false in
/-- THE RUN of @main, at any float values: it ends, the arguments are unchanged, and the result is named. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v25) = StableHlo.after hostOps1 (Wexit m c) (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit (pcfgs (F := F)) adm (dats m) () cellOf_inj emb₁ defs₀ Variants.none L lv m ρ main (segs m)
    (main_wp m)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (W0 m c) ∗ R c))
    (Tₙ := fun c => StableHlo.held (c : Thread nD τ) (Pipeline.ucRefs τ sig) (StableHlo.after hostOps1 (Wexit m c)))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := ?hinit)
    (QY := fun c s =>
      s.mem ((c.tc : Thread nD τ).loc main_v25) = StableHlo.after hostOps1 (Wexit m c) (Proc.devRef .tc main_v25)
      ∧ s.mem ((c.tc : Thread nD τ).loc main_arg0) = StableHlo.after hostOps1 (Wexit m c) (Proc.devRef .tc main_arg0)
      ∧ s.mem ((c.tc : Thread nD τ).loc main_arg1) = StableHlo.after hostOps1 (Wexit m c) (Proc.devRef .tc main_arg1)
      ∧ s.mem ((c.tc : Thread nD τ).loc main_arg2) = StableHlo.after hostOps1 (Wexit m c) (Proc.devRef .tc main_arg2)
      ∧ s.mem ((c.tc : Thread nD τ).loc main_arg3) = StableHlo.after hostOps1 (Wexit m c) (Proc.devRef .tc main_arg3))
    (hfin := ?hfin)
    (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, -, -⟩, -⟩
    imodintro
    isplitl [Hh]; · iexact Hh
    iexists ∅; iexact HO
  case hfin =>
    intro c s'
    have hmem : ∀ b : Ref sig .tc, b.isScoped = false → Proc.devRef (τ := τ) .tc b ∈ Pipeline.ucRefs τ sig := fun b hb =>
      Finset.mem_filter.mpr ⟨StableHlo.devRef_mem_tcRefs b, fun h' => Bool.false_ne_true (hb.symm.trans h')⟩
    iintro ⟨Hh, HSI⟩
    ihave H := (held_read c _ main_v25 (hmem _ rfl) s') $$ [Hh HSI]
    · isplitl [Hh] <;> iassumption
    icases H with ⟨%h25, Hh, HSI⟩
    ihave H := (held_read c _ main_arg0 (hmem _ rfl) s') $$ [Hh HSI]
    · isplitl [Hh] <;> iassumption
    icases H with ⟨%h0, Hh, HSI⟩
    ihave H := (held_read c _ main_arg1 (hmem _ rfl) s') $$ [Hh HSI]
    · isplitl [Hh] <;> iassumption
    icases H with ⟨%h1, Hh, HSI⟩
    ihave H := (held_read c _ main_arg2 (hmem _ rfl) s') $$ [Hh HSI]
    · isplitl [Hh] <;> iassumption
    icases H with ⟨%h2, Hh, HSI⟩
    ihave H := (held_read c _ main_arg3 (hmem _ rfl) s') $$ [Hh HSI]
    · isplitl [Hh] <;> iassumption
    icases H with ⟨%h3, -, HSI⟩
    imodintro
    isplitr; · ipureintro; exact ⟨h25, h0, h1, h2, h3⟩
    iexact HSI
  case hQ =>
    intro s h c
    obtain ⟨h25, h0, h1, h2, h3⟩ := h c
    exact ⟨h25, h0.trans (final_arg0 m c), h1.trans (final_arg1 m c), h2.trans (final_arg2 m c), h3.trans (final_arg3 m c)⟩

end Cert.Kernel.Hand

end
-- ==== Proof.KI.Conds.lean ====
/-
  The kernel body's two branches, as facts about the grid. The body clears its accumulator when both grid
  coordinates are zero and copies it to the output block when both are seven; on the 8 × 8 grid, walked row-major,
  those are the first point and the last. Also: where each window is idle, and that no point before the last
  writes the output block back.
-/
import proofs.«157451_j90563680404074_1_alg».proof.Proof.Gen.KernelIdeal.Launch
import proofs.«157451_j90563680404074_1_alg».proof.Proof.Gen.KernelIdeal.Skeleton
import proofs.«157451_j90563680404074_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-- The accumulator is cleared here: both coordinates are zero (the body's first conditional, its scalar chain
    written out over the coordinates). -/
abbrev isFirst (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- The accumulator is copied to the output block here: both coordinates are seven (the body's second conditional). -/
abbrev isLast (i : grid0.Coords) : Prop := k0_cond2 i = 1#1

/-- Row-major over the 8 × 8 grid, the point with both coordinates zero is point 0, -/
theorem isFirst_iff : ∀ t : Fin cfg0.N, isFirst (grid0.coords t) ↔ t.val = 0 :=
  (by decide +kernel : ∀ t : Fin grid0.N, isFirst (grid0.coords t) ↔ t.val = 0)

/-- and the one with both coordinates seven is point 63. -/
theorem isLast_iff : ∀ t : Fin cfg0.N, isLast (grid0.coords t) ↔ t.val = 63 :=
  (by decide +kernel : ∀ t : Fin grid0.N, isLast (grid0.coords t) ↔ t.val = 63)

/-- The three input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The output window is idle at every point but the last, where the body stores into it. -/
theorem idle3_of_not_last : ∀ t : Fin cfg0.N, ¬ isLast (grid0.coords t) → cfg0.idle 3 (grid0.coords t) = true := by decide +kernel
theorem live3_of_last : ∀ t : Fin cfg0.N, isLast (grid0.coords t) → cfg0.idle 3 (grid0.coords t) = false := by decide +kernel

/-- No point before the last writes the output block back. -/
theorem noFlush3_of_not_last : ∀ t : Fin cfg0.N, ¬ isLast (grid0.coords t) → (cfg0.win 3).flush t = false := by decide +kernel
theorem flush3_of_last : ∀ t : Fin cfg0.N, isLast (grid0.coords t) → (cfg0.win 3).flush t = true := by decide +kernel

/-- The output window is never fetched. -/
theorem noFetch3 : ∀ t : Fin cfg0.N, (cfg0.win 3).fetch t = false := by decide +kernel

end Cert.KernelIdeal.Hand

end
-- ==== Proof.KI.Data.lean ====
/-
  What the kernel region works on, as data. The host operations before the region leave the normalised anchor
  (cast to bf16) in one array, which the region reads through TWO windows — the row tile and the column tile of a
  grid point — beside the similarity matrix's tile. The body keeps one (8, 128) accumulator in scratch: cleared at
  the first point, at every point increased in every lane by that point's tile sum, copied to the output block at
  the last point. Here: the buffers' contents after each host stretch, the three input blocks of a point, the
  accumulator's contents after each point (by recursion on the point), and the region's proof data — each window's
  staging contents after the body, the accumulator as the invariant between points, and how the one shared array
  is dealt to its two windows (half each).
-/
import proofs.«157451_j90563680404074_1_alg».proof.Proof.KI.Conds
import Idealize.ShloMosaic.Lib.Pipeline.Kit
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers after each host stretch before the region -/

/-- Core `c`'s buffers at launch, as the host operations' valuation. -/
abbrev W0 (c : Dev nD) : Valuation τ sig (Elt F) := fun b => m (c, b)
/-- After each of the nine stretches before the region, in order. -/
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def W6 (c : Dev nD) : Valuation τ sig (Elt F) := StableHlo.after hostOps0_5 (W5 m c)
def W7 (c : Dev nD) : Valuation τ sig (Elt F) := StableHlo.after hostOps0_6 (W6 m c)
def W8 (c : Dev nD) : Valuation τ sig (Elt F) := StableHlo.after hostOps0_7 (W7 m c)
/-- When the region is entered. -/
def W9 (c : Dev nD) : Valuation τ sig (Elt F) := StableHlo.after hostOps0_8 (W8 m c)

/-- The same read at a TensorCore reference. -/
abbrev V (c : Dev nD) (b : Ref sig .tc) : Buf (Elt F) ((c : Thread nD τ).loc b) := W9 m c (Proc.devRef .tc b)

/-! ## A point's input blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the normalised anchor a point's ROW tile covers, -/
abbrev rowBlk (c : Dev nD) (t : Fin cfg0.N) : Vec F S1024x256 .bf16 := iblk m c 0 t
/-- the 1024 rows its COLUMN tile covers, -/
abbrev colBlk (c : Dev nD) (t : Fin cfg0.N) : Vec F S1024x256 .bf16 := iblk m c 1 t
/-- and the similarity matrix's 1024 × 1024 tile there. -/
abbrev simBlk (c : Dev nD) (t : Fin cfg0.N) : Vec F S1024x1024 .f32 := iblk m c 2 t

/-! ## The accumulator, point by point -/

/-- The scratch accumulator, a whole scoped buffer of the kernel's own. -/
abbrev scM : Memref sig .tc .vmem S8x128 .f32 := Memref.whole cc0_scratch0

/-- What the accumulator holds after point `n`: at the first point the body's update of the cleared accumulator,
    at a later point its update of what the point before left. -/
def accAt (c : Dev nD) : ℕ → Vec F S8x128 .f32
  | 0 => k0_pay2 (rowBlk m c ⟨0, by decide⟩) (colBlk m c ⟨0, by decide⟩) (simBlk m c ⟨0, by decide⟩) (k0_pay1 (F := F))
  | n + 1 =>
    if h : n + 1 < cfg0.N then k0_pay2 (rowBlk m c ⟨n + 1, h⟩) (colBlk m c ⟨n + 1, h⟩) (simBlk m c ⟨n + 1, h⟩) (accAt c n)
    else accAt c n

/-- The invariant between points: before the first point the accumulator at anything, after point `n` at `accAt n`. -/
def phi (c : Dev nD) : ℕ → sProp 𝕄
  | 0 => iprop(∃ d, owns (c : Thread nD τ) scM fullShare d)
  | n + 1 => owns (c : Thread nD τ) scM fullShare (accAt m c n)

/-! ## The region's proof data -/

/-- On core `c`: the arrays at their region-entry contents; each input window's staging buffer left holding its
    block, the output window's the accumulator; the accumulator between points; the shared array half to each of
    its two windows, the similarity matrix whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val
  Φ t := phi m c t.val
  q w := match w with
    | ⟨0, _⟩ => fullShare.left
    | ⟨1, _⟩ => fullShare.right
    | ⟨2, _⟩ => fullShare
    | ⟨3, _⟩ => fullShare
  owed _ := 0

/-! ## The buffers when the region is left -/

/-- As the region found them, but for the kernel's result array, which holds what the write-backs left
    (the last point's copy of the accumulator). The nine host operations after the region run from here. -/
def Wexit (c : Dev nD) : Valuation τ sig (Elt F) :=
  Function.update (W9 m c) (Proc.devRef .tc main_v20) ((dats m 0 c).arrAt 3 cfg0.N)

end Cert.KernelIdeal.Hand

end
-- ==== Proof.KI.Body.lean ====
/-
  The kernel body run once per control case, at symbolic staging memrefs and contents. Every point multiplies the
  row tile by the column tile (contracting the 256 features), subtracts the similarity tile, squares, sums, and adds
  the sum into every lane of the (8, 128) accumulator. The first point clears the accumulator before that; the last
  point afterwards copies it to the output block. So from the three input blocks `x0 x1 x2` and the accumulator at
  `s` the body leaves the accumulator at `k0_pay2 x0 x1 x2 s` (the skeleton's name for that update), with
  `s := k0_pay1` (the cleared accumulator) at the first point, and the inputs as they were.
-/
import proofs.«157451_j90563680404074_1_alg».proof.Proof.KI.Conds
import Idealize.ShloMosaic.Lib.Pipeline.Kit
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and stores

Every load and store of the body is of a WHOLE staging buffer: the rectangle at the origin with the buffer's own
extents. Through it a load reads the buffer's contents, a store leaves its payload whatever was there, and a load
after such a store reads the payload back. -/

/-- The origin of a whole-block rectangle of rank two, written as the pair of zeros, is zero at both coordinates. -/
theorem body_origin2 : (![0, 0] : Fin 2 → Nat) = fun _ => 0 := funext fun a => by fin_cases a <;> rfl

/-- A load of the whole (1024, 256) block, from a buffer that reads `X`, reads `X`. -/
theorem body_readWhole_S1024x256 (M : Memref sig .tc .vmem S1024x256 .bf16) (h : M.IsWhole) (X : Vec F S1024x256 .bf16) :
    View.readAt (Elt F) M.view (Rect.unit (s := S1024x256) ![0, 0] S1024x256.size inb_S1024x256_S1024x256_0_0).toLoadRect (h.unread X) = X := by
  rw [View.readAt_eq_ld, h.read_unread]; exact View.ld_unit_zero (S := S1024x256) body_origin2 _ X

/-- A load of the whole (1024, 1024) block, from a buffer that reads `X`, reads `X`. -/
theorem body_readWhole_S1024x1024 (M : Memref sig .tc .vmem S1024x1024 .f32) (h : M.IsWhole) (X : Vec F S1024x1024 .f32) :
    View.readAt (Elt F) M.view (Rect.unit (s := S1024x1024) ![0, 0] S1024x1024.size inb_S1024x1024_S1024x1024_0_0).toLoadRect (h.unread X) = X := by
  rw [View.readAt_eq_ld, h.read_unread]; exact View.ld_unit_zero (S := S1024x1024) body_origin2 _ X

/-- A load of the whole (8, 128) block, from a buffer that reads `X`, reads `X`. -/
theorem body_readWhole_S8x128 (M : Memref sig .tc .vmem S8x128 .f32) (h : M.IsWhole) (X : Vec F S8x128 .f32) :
    View.readAt (Elt F) M.view (Rect.unit (s := S8x128) ![0, 0] S8x128.size inb_S8x128_S8x128_0_0).toLoadRect (h.unread X) = X := by
  rw [View.readAt_eq_ld, h.read_unread]; exact View.ld_unit_zero (S := S8x128) body_origin2 _ X

/-- A store of the whole (8, 128) block, made last, leaves its payload: the buffer then reads the payload,
    whatever it held and whatever was stored before. -/
theorem body_read_storeWhole_S8x128 (M : Memref sig .tc .vmem S8x128 .f32) (f : M.view.ty.Contents (Elt F)) (w : Vec F S8x128 .f32)
    (L : List (View.Piece (Elt F) S8x128 .f32)) :
    View.read (Elt F) M.view (M.view.writes (Elt F) f
      ((⟨Rect.unit (s := S8x128) ![0, 0] S8x128.size inb_S8x128_S8x128_0_0, w⟩ : View.Piece (Elt F) S8x128 .f32) :: L)) = w := by
  have cov : ∀ y : S8x128.Idx, ∃ p ∈ ((⟨Rect.unit (s := S8x128) ![0, 0] S8x128.size inb_S8x128_S8x128_0_0, w⟩ :
      View.Piece (Elt F) S8x128 .f32) :: L), y ∈ p.1.set :=
    fun y => ⟨⟨Rect.unit (s := S8x128) ![0, 0] S8x128.size inb_S8x128_S8x128_0_0, w⟩, List.mem_cons_self,
      View.mem_set_unit_zero (S := S8x128) body_origin2 inb_S8x128_S8x128_0_0 y⟩
  rw [View.read_writes_eq_canon M.view f _ cov]
  exact View.canon_cons_unit_zero (S := S8x128) body_origin2 _ w L

/-- A load of the whole (8, 128) block, made after one store of the whole block, reads that store's payload. -/
theorem body_readBack_S8x128 (M : Memref sig .tc .vmem S8x128 .f32) (w : Vec F S8x128 .f32) :
    M.view.readCov [(⟨Rect.unit (s := S8x128) ![0, 0] S8x128.size inb_S8x128_S8x128_0_0, w⟩ : View.Piece (Elt F) S8x128 .f32)]
      (Rect.unit (s := S8x128) ![0, 0] S8x128.size inb_S8x128_S8x128_0_0).toLoadRect = w :=
  View.readCov_unit_zero (S := S8x128) M.view body_origin2 inb_S8x128_S8x128_0_0 w

/-! ## The body, case by case -/

/-- THE FIRST POINT: the accumulator, found at anything, is cleared and then updated. -/
theorem runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : isFirst i) (hc1 : ¬ isLast i)
    (x0 x1 : Vec F S1024x256 .bf16) (x2 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg6 fullShare (k0_pay2 x0 x1 x2 (k0_pay1 (F := F)))) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%d6, %f6, %hf6, H6⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap
  · iexact H6
  · ipureintro
    sl_unfold_run_names
    refine (body_read_storeWhole_S8x128 arg6 _ _ _).trans ?_
    rw [body_readWhole_S1024x256 arg2 harg2 x0, body_readWhole_S1024x256 arg3 harg3 x1, body_readWhole_S1024x1024 arg4 harg4 x2,
      body_readBack_S8x128 arg6 (k0_pay1 (F := F))]

/-- A POINT THAT IS NEITHER: the accumulator at `s` is updated. -/
theorem runMid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : ¬ isFirst i) (hc1 : ¬ isLast i)
    (x0 x1 : Vec F S1024x256 .bf16) (x2 : Vec F S1024x1024 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg6 fullShare (k0_pay2 x0 x1 x2 s)) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap
  · iexact H6
  · ipureintro
    refine (body_read_storeWhole_S8x128 arg6 _ _ []).trans ?_
    rw [body_readWhole_S1024x256 arg2 harg2 x0, body_readWhole_S1024x256 arg3 harg3 x1, body_readWhole_S1024x1024 arg4 harg4 x2,
      body_readWhole_S8x128 arg6 harg6 s]

/-- THE LAST POINT: the accumulator at `s` is updated and then copied to the output block, found at anything. -/
theorem runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole)
    (hc0 : ¬ isFirst i) (hc1 : isLast i)
    (x0 x1 : Vec F S1024x256 .bf16) (x2 : Vec F S1024x1024 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
              ∗ owns (c : Thread nD τ) arg5 fullShare (k0_pay2 x0 x1 x2 s) ∗ owns (c : Thread nD τ) arg6 fullShare (k0_pay2 x0 x1 x2 s)) -∗ K ⟨⟩))
      ⊢ wp frame (wpE (defs₀ (F := F)) Variants.none c none) E (cc0__sim_mse_kernel i arg2 harg2 arg3 harg3 arg4 harg4 arg5 harg5 arg6 harg6) K := by
  simp only [cc0__sim_mse_kernel_eq_skeleton]; unfold cc0__sim_mse_kernel_skel
  unfold owns
  iintro ⟨⟨%f0, %hf0, H0⟩, ⟨%f1, %hf1, H1⟩, ⟨%f2, %hf2, H2⟩, ⟨%d5, %f5, %hf5, H5⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; swap
    · iexact H5
    · ipureintro
      refine (body_read_storeWhole_S8x128 arg5 _ _ []).trans ?_
      sl_unfold_run_names
      refine (body_readBack_S8x128 arg6 _).trans ?_
      rw [body_readWhole_S1024x256 arg2 harg2 x0, body_readWhole_S1024x256 arg3 harg3 x1, body_readWhole_S1024x1024 arg4 harg4 x2,
        body_readWhole_S8x128 arg6 harg6 s]
  iexists _; isplitr; swap
  · iexact H6
  · ipureintro
    sl_unfold_run_names
    refine (body_read_storeWhole_S8x128 arg6 _ _ []).trans ?_
    rw [body_readWhole_S1024x256 arg2 harg2 x0, body_readWhole_S1024x256 arg3 harg3 x1, body_readWhole_S1024x1024 arg4 harg4 x2,
      body_readWhole_S8x128 arg6 harg6 s]

end Cert.KernelIdeal.Hand

end
-- ==== Proof.KI.Oblig.lean ====
/-
  The region's body obligation: at every grid point, from the invariant (the accumulator as the point before left
  it) and each window's staging buffer as the pipeline hands it over — an input window's holding its block of the
  array whether or not this point fetched it, the output window's holding whatever it held — the body runs to the
  invariant at the next point and the buffers as the proof data say: by cases first / neither / last point.
-/
import proofs.«157451_j90563680404074_1_alg».proof.Proof.KI.Data
import proofs.«157451_j90563680404074_1_alg».proof.Proof.KI.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The proof data's fields, read off their definition: each array at its region-entry contents, -/
theorem A_eq (c : Dev nD) (w : Fin cfg0.W) : (dats m 0 c).A w = V m c (Pipeline.arrRef spec0 w) := by
  dsimp only [dats]
/-- each input window's staging buffer left at its block, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
/-- and the output window's at the accumulator after the point. -/
theorem after_out (c : Dev nD) (t : Fin cfg0.N) : (dats m 0 c).after 3 t = accAt m c t.val := by dsimp only [dats]

/-- What a fetch reads at a point is the window's block of its array as the region finds it. -/
theorem blockOf_eq (c : Dev nD) (w : Fin cfg0.W) (t : Fin cfg0.N) : (dats m 0 c).blockOf w t = iblk m c w t := by
  unfold Dat.blockOf iblk; rw [A_eq]

/-- No input window's block is cut by its array's edge (the tiles divide the array): a fetch fills the whole staging
    buffer with the block, whatever it held. -/
theorem fetched_in0 (c : Dev nD) (t : Fin cfg0.N) (d) : (dats m 0 c).fetched 0 t d = iblk m c 0 t := by
  unfold Dat.fetched; rw [blockOf_eq]; rfl
theorem fetched_in1 (c : Dev nD) (t : Fin cfg0.N) (d) : (dats m 0 c).fetched 1 t d = iblk m c 1 t := by
  unfold Dat.fetched; rw [blockOf_eq]; rfl
theorem fetched_in2 (c : Dev nD) (t : Fin cfg0.N) (d) : (dats m 0 c).fetched 2 t d = iblk m c 2 t := by
  unfold Dat.fetched; rw [blockOf_eq]; rfl

/-- An input window's current staging buffer holds its block at every point, fetched there or not (a window whose
    block index has not moved keeps what the earlier fetch brought). -/
theorem before_in0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t :=
    fun t => by rw [after_in0, blockOf_eq]
  rw [(dats m 0 c).before_in_eq_fetched 0 rfl (fun _ => rfl) (fun _ _ _ => rfl) hkeep t d]
  exact fetched_in0 m c t d
theorem before_in1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t :=
    fun t => by rw [after_in1, blockOf_eq]
  rw [(dats m 0 c).before_in_eq_fetched 1 rfl (fun _ => rfl) (fun _ _ _ => rfl) hkeep t d]
  exact fetched_in1 m c t d
theorem before_in2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t :=
    fun t => by rw [after_in2, blockOf_eq]
  rw [(dats m 0 c).before_in_eq_fetched 2 rfl (fun _ => rfl) (fun _ _ _ => rfl) hkeep t d]
  exact fetched_in2 m c t d

/-- The grid has 64 points. -/
theorem lt64 (t : Fin cfg0.N) : t.val < 64 := lt_of_lt_of_eq t.isLt (show cfg0.N = 64 from N_0)

/-- The output window's staging buffer is untouched up to the last point: it holds what it held at entry. -/
theorem before_out (c : Dev nD) (t : Fin cfg0.N) (d) : (dats m 0 c).before 3 t d = d := by
  induction hn : t.val using Nat.strong_induction_on generalizing t with
  | _ n ih =>
    subst hn
    by_cases h0 : t.val = 0
    · exact (dats m 0 c).before_out_reset 3 rfl t (.inl h0) d
    · have hN := lt64 t
      have hnl : ¬ isLast (grid0.coords (⟨t.val - 1, Nat.lt_of_le_of_lt (Nat.sub_le _ _) t.isLt⟩ : Fin cfg0.N)) := fun h => by
        have := (isLast_iff _).mp h
        simp only at this
        omega
      rw [(dats m 0 c).before_of_pos 3 t h0 (noFetch3 t), noFlush3_of_not_last _ hnl, if_neg Bool.false_ne_true]
      unfold Dat.left
      rw [idle3_of_not_last _ hnl]
      exact ih (t.val - 1) (by omega) _ rfl

/-- The invariant after a point is the accumulator at what that point left, -/
theorem Phi_succ (c : Dev nD) (t : Fin cfg0.N) :
    (dats m 0 c).Φ t.succ = owns (c : Thread nD τ) scM fullShare (accAt m c t.val) := by
  dsimp only [dats]; rw [Fin.val_succ]; rfl
/-- before the first point the accumulator at anything, -/
theorem Phi_first (c : Dev nD) (t : Fin cfg0.N) (h0 : t.val = 0) :
    (dats m 0 c).Φ t.castSucc = iprop(∃ d, owns (c : Thread nD τ) scM fullShare d) := by
  dsimp only [dats]; rw [Fin.coe_castSucc, h0]; rfl
/-- and before a later point the accumulator at what the point before left. -/
theorem Phi_later (c : Dev nD) (t : Fin cfg0.N) (n : ℕ) (hn : t.val = n + 1) :
    (dats m 0 c).Φ t.castSucc = owns (c : Thread nD τ) scM fullShare (accAt m c n) := by
  dsimp only [dats]; rw [Fin.coe_castSucc, hn]; rfl

/-- The accumulator after the first point: the update of the cleared accumulator by the point's blocks. -/
theorem accAt_first (c : Dev nD) (t : Fin cfg0.N) (h0 : t.val = 0) :
    accAt m c t.val = k0_pay2 (rowBlk m c t) (colBlk m c t) (simBlk m c t) (k0_pay1 (F := F)) := by
  obtain ⟨k, hk⟩ := t
  cases h0
  rfl
/-- The accumulator after a later point: the update, by the point's blocks, of what the point before left. -/
theorem accAt_later (c : Dev nD) (t : Fin cfg0.N) (n : ℕ) (hn : t.val = n + 1) :
    accAt m c t.val = k0_pay2 (rowBlk m c t) (colBlk m c t) (simBlk m c t) (accAt m c n) := by
  obtain ⟨k, hk⟩ := t
  cases hn
  exact dif_pos hk

/-- What the body leaves in an input window's staging buffer: the window's block, as it found it. -/
theorem leaves_in0 (c : Dev nD) (t : Fin cfg0.N) :
    (dats m 0 c).leavesExact 0 t = owns (c : Thread nD τ) (st0_0 t) fullShare (iblk m c 0 t) := by
  unfold Dat.leavesExact; rw [live0 t, after_in0]
theorem leaves_in1 (c : Dev nD) (t : Fin cfg0.N) :
    (dats m 0 c).leavesExact 1 t = owns (c : Thread nD τ) (st0_1 t) fullShare (iblk m c 1 t) := by
  unfold Dat.leavesExact; rw [live1 t, after_in1]
theorem leaves_in2 (c : Dev nD) (t : Fin cfg0.N) :
    (dats m 0 c).leavesExact 2 t = owns (c : Thread nD τ) (st0_2 t) fullShare (iblk m c 2 t) := by
  unfold Dat.leavesExact; rw [live2 t, after_in2]
/-- What the body leaves in the output window's staging buffer: before the last point what it held, -/
theorem leaves_out_idle (c : Dev nD) (t : Fin cfg0.N) (h : ¬ isLast (grid0.coords t)) :
    (dats m 0 c).leavesExact 3 t = iprop(∃ d, owns (c : Thread nD τ) (st0_3 t) fullShare d) := by
  rw [Dat.leavesExact_idle _ 3 t (idle3_of_not_last t h) (noFlush3_of_not_last t h)]
  simp only [before_out]
/-- at the last point the accumulator. -/
theorem leaves_out_live (c : Dev nD) (t : Fin cfg0.N) (h : isLast (grid0.coords t)) :
    (dats m 0 c).leavesExact 3 t = owns (c : Thread nD τ) (st0_3 t) fullShare (accAt m c t.val) := by
  unfold Dat.leavesExact; rw [live3_of_last t h, after_out]

/-- THE BODY AT A POINT, the windows one by one: from the invariant, what the core owes and each window's current
    staging buffer as the pipeline hands it over, the body runs to the invariant at the next point, the same owed,
    and each buffer as the proof data say. By cases: the first point, the last, neither. -/
theorem step (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) fun _ =>
          iprop((dats m 0 c).Φ t.succ ∗ (dats m 0 c).owesAt () t.succ
            ∗ (dats m 0 c).leavesExact 0 t ∗ (dats m 0 c).leavesExact 1 t ∗ (dats m 0 c).leavesExact 2 t
            ∗ (dats m 0 c).leavesExact 3 t) := by
  have hN := lt64 t
  simp only [before_in0, before_in1, before_in2, before_out]
  rw [leaves_in0, leaves_in1, leaves_in2, Phi_succ]
  rw [show (dats m 0 c).owesAt () t.succ = (dats m 0 c).owesAt () t.castSucc from rfl]
  by_cases h0 : t.val = 0
  · -- the first point: the accumulator is found at anything, the output window idle
    have hc0 : isFirst (grid0.coords t) := (isFirst_iff t).mpr h0
    have hc1 : ¬ isLast (grid0.coords t) := fun h => by have := (isLast_iff t).mp h; omega
    rw [leaves_out_idle m c t hc1, Phi_first m c t h0, accAt_first m c t h0]
    iintro ⟨⟨%s, HS⟩, Ho, ⟨%d0, H0⟩, ⟨%d1, H1⟩, ⟨%d2, H2⟩, ⟨%d3, H3⟩⟩
    iapply (runFirst c (grid0.coords t) _ _ _ _ _ _ _ _ _ _ hc0 hc1 (rowBlk m c t) (colBlk m c t) (simBlk m c t) Set.univ _)
    isplitl [H0]; · iexact H0
    isplitl [H1]; · iexact H1
    isplitl [H2]; · iexact H2
    isplitl [HS]; · iexists s; iexact HS
    iintro ⟨H0, H1, H2, HS⟩
    isplitl [HS]; · iexact HS
    isplitl [Ho]; · iexact Ho
    isplitl [H0]; · iexact H0
    isplitl [H1]; · iexact H1
    isplitl [H2]; · iexact H2
    iexists d3; iexact H3
  · -- a later point: the accumulator is found at what the point before left
    obtain ⟨n, hn⟩ : ∃ n, t.val = n + 1 := ⟨t.val - 1, by omega⟩
    have hc0 : ¬ isFirst (grid0.coords t) := fun h => h0 ((isFirst_iff t).mp h)
    rw [Phi_later m c t n hn, accAt_later m c t n hn]
    by_cases h1 : t.val = 63
    · -- the last point: the output window takes the accumulator
      have hc1 : isLast (grid0.coords t) := (isLast_iff t).mpr h1
      rw [leaves_out_live m c t hc1, accAt_later m c t n hn]
      iintro ⟨HS, Ho, ⟨%d0, H0⟩, ⟨%d1, H1⟩, ⟨%d2, H2⟩, ⟨%d3, H3⟩⟩
      iapply (runLast c (grid0.coords t) _ _ _ _ _ _ _ _ _ _ hc0 hc1 (rowBlk m c t) (colBlk m c t) (simBlk m c t) (accAt m c n) Set.univ _)
      isplitl [H0]; · iexact H0
      isplitl [H1]; · iexact H1
      isplitl [H2]; · iexact H2
      isplitl [H3]; · iexists d3; iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · -- neither: the output window idle
      have hc1 : ¬ isLast (grid0.coords t) := fun h => h1 ((isLast_iff t).mp h)
      rw [leaves_out_idle m c t hc1]
      iintro ⟨HS, Ho, ⟨%d0, H0⟩, ⟨%d1, H1⟩, ⟨%d2, H2⟩, ⟨%d3, H3⟩⟩
      iapply (runMid c (grid0.coords t) _ _ _ _ _ _ _ _ _ _ hc0 hc1 (rowBlk m c t) (colBlk m c t) (simBlk m c t) (accAt m c n) Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      isplitl [H2]; · iexact H2
      iexists d3; iexact H3

/-- THE BODY OBLIGATION of the region's proof data. -/
theorem body_obligation (c : Dev nD) : BodyObligation (dats m 0 c) (defs₀ (F := F)) Variants.none () Set.univ := fun t => by
  rw [bigSep_W0, bigSep_W0]
  exact step m c t

end Cert.KernelIdeal.Hand

end
-- ==== Proof.KI.Entry.lean ====
/-
  The region's entry and exit, as entailments between the thread state the host stretches run in (every unscoped
  buffer held whole at a valuation) and what the region takes: the three arrays its four windows stage, the rest
  bypassing it. The normalised anchor's array is staged by TWO windows, so its buffer is dealt to them half and half
  at entry and the halves are joined again at exit; the similarity matrix goes in and out whole; the result array
  comes out at what the last point's write-back left, which is the one place where the valuation after the region
  differs from the one before it. Also: one buffer's contents read off a final state that holds the buffers.
-/
import proofs.«157451_j90563680404074_1_alg».proof.Proof.KI.Data
import Idealize.ShloMosaic.Lib.Pipeline.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The three arrays the region's windows stage: the normalised anchor (twice), the similarity matrix, the result. -/
def arrSet : Finset (DevRef τ sig) := {Proc.devRef .tc main_v19, Proc.devRef .tc main_arg3, Proc.devRef .tc main_v20}

/-- What bypasses the region on core `c`: every other unscoped buffer, held as the region found it. -/
def bypass (c : Dev nD) : sProp 𝕄 :=
  StableHlo.held (c : Thread nD τ) (Pipeline.ucRefs τ sig \ arrSet) (W9 m c)

/-- The region's arrays at contents `X`: every window's array is a whole buffer, so each is held over all its elements. -/
theorem entry_arrays_univ (c : Dev nD) (X : (w : Fin cfg0.W) → Buf (Elt F) ((cfg0.win w).arr.view.loc (c : Thread nD τ))) :
    ((dats m 0 c).arrays X : sProp 𝕄)
      = bigSep Finset.univ fun w : Fin cfg0.W => ((cfg0.win w).arr.view.loc (c : Thread nD τ) ↦{(dats m 0 c).share w} X w : sProp 𝕄) := by
  unfold Dat.arrays
  exact bigSep_congr fun w _ => by rw [(arr_whole0 w).set_eq_univ]

/-- Buffer `b` of core `c`, all its elements, at share `q` and at contents `X`. -/
abbrev entry_buf (c : Dev nD) (b : Ref sig .tc) (q : PosShare TreeShare) (X : Buf (Elt F) ((c : Thread nD τ).loc b)) : sProp 𝕄 :=
  ((c : Thread nD τ).loc b ↦{q} X)

/-- Holding the three arrays at a valuation is holding each of them whole at the full share, at what the valuation
    gives it. -/
theorem entry_held_arrSet (c : Dev nD) (W : Valuation τ sig (Elt F)) :
    (StableHlo.held (c : Thread nD τ) arrSet W : sProp 𝕄)
      = iprop(entry_buf c main_v19 fullShare (W (Proc.devRef .tc main_v19))
          ∗ entry_buf c main_arg3 fullShare (W (Proc.devRef .tc main_arg3))
          ∗ entry_buf c main_v20 fullShare (W (Proc.devRef .tc main_v20))) := by
  unfold StableHlo.held arrSet
  rw [bigSep_insert (by decide), bigSep_insert (by decide), bigSep_singleton]
  rfl

/-- The three arrays are unscoped buffers of the TensorCore. -/
theorem entry_arrSet_sub : (arrSet : Finset (DevRef τ sig)) ⊆ Pipeline.ucRefs τ sig := by decide

/-- A buffer at the full share is its left half beside its right half, at the same contents. -/
theorem entry_halves (c : Dev nD) (b : Ref sig .tc) (X : Buf (Elt F) ((c : Thread nD τ).loc b)) :
    (entry_buf c b fullShare X : sProp 𝕄) ⊣⊢ iprop(entry_buf c b fullShare.left X ∗ entry_buf c b fullShare.right X) :=
  pointsTo_share (PosShare.mem_left_op_right fullShare)

/-- ENTRY: the unscoped buffers as the host stretches left them are the region's arrays at their entry contents —
    the shared array half to window 0 and half to window 1 — beside what bypasses the region. -/
theorem entry_split (c : Dev nD) :
    (StableHlo.held (c : Thread nD τ) (Pipeline.ucRefs τ sig) (W9 m c) : sProp 𝕄)
      ⊢ iprop((dats m 0 c).arrays ((dats m 0 c).arrAt · 0) ∗ bypass m c) := by
  -- The unscoped buffers are the three arrays and the rest; the arrays' four windows one by one.
  rw [StableHlo.held_sub_split _ entry_arrSet_sub, entry_held_arrSet, entry_arrays_univ, bigSep_W0]
  show _ ⊢ iprop((entry_buf c main_v19 fullShare.left (V m c main_v19) ∗ entry_buf c main_v19 fullShare.right (V m c main_v19)
      ∗ entry_buf c main_arg3 fullShare (V m c main_arg3) ∗ entry_buf c main_v20 fullShare (V m c main_v20))
      ∗ StableHlo.held (c : Thread nD τ) (Pipeline.ucRefs τ sig \ arrSet) (W9 m c))
  -- The shared array's full share is dealt out as its left half beside its right half; the rest is re-bracketing.
  refine (sep_mono (sep_mono (entry_halves c main_v19 _).1 .rfl) .rfl).trans ?_
  iintro ⟨⟨⟨Hl, Hr⟩, H3, H20⟩, Hby⟩
  isplitl [Hl Hr H3 H20]
  · isplitl [Hl]; · iexact Hl
    isplitl [Hr]; · iexact Hr
    isplitl [H3]; · iexact H3
    iexact H20
  iexact Hby

/-- EXIT: the arrays at their final contents — the inputs as they were, the two halves of the shared array joined
    again, the result array as the write-backs left it — beside what bypassed the region are the unscoped buffers at
    the valuation the closing host operations start from. -/
theorem exit_join (c : Dev nD) :
    iprop((dats m 0 c).arrays ((dats m 0 c).arrAt · cfg0.N) ∗ bypass m c)
      ⊢ (StableHlo.held (c : Thread nD τ) (Pipeline.ucRefs τ sig) (Wexit m c) : sProp 𝕄) := by
  -- The exit valuation is the entry one but at the result array, where it is that array's final contents.
  have h20 : Proc.devRef (τ := τ) .tc main_v20 ∈ (arrSet : Finset (DevRef τ sig)) := by decide
  have hrest : (StableHlo.held (c : Thread nD τ) (Pipeline.ucRefs τ sig \ arrSet) (Wexit m c) : sProp 𝕄) = bypass m c :=
    StableHlo.held_congr _ fun b hb => Function.update_of_ne (fun e => (Finset.mem_sdiff.mp hb).2 (by rw [e]; exact h20)) _ _
  have e19 : Wexit m c (Proc.devRef .tc main_v19) = V m c main_v19 :=
    Function.update_of_ne (StableHlo.devRef_ne_of_ne (by decide)) _ _
  have e3 : Wexit m c (Proc.devRef .tc main_arg3) = V m c main_arg3 :=
    Function.update_of_ne (StableHlo.devRef_ne_of_ne (by decide)) _ _
  have e20 : Wexit m c (Proc.devRef .tc main_v20) = (dats m 0 c).arrAt 3 cfg0.N := Function.update_self _ _ _
  -- An input window's array is never written back: at the end it holds what it held at entry.
  have a0 : (dats m 0 c).arrAt 0 cfg0.N = V m c main_v19 := (dats m 0 c).arrAt_in 0 rfl _
  have a1 : (dats m 0 c).arrAt 1 cfg0.N = V m c main_v19 := (dats m 0 c).arrAt_in 1 rfl _
  have a2 : (dats m 0 c).arrAt 2 cfg0.N = V m c main_arg3 := (dats m 0 c).arrAt_in 2 rfl _
  rw [StableHlo.held_sub_split _ entry_arrSet_sub (Wexit m c), hrest, entry_held_arrSet, e19, e3, e20, entry_arrays_univ, bigSep_W0]
  show iprop((entry_buf c main_v19 fullShare.left ((dats m 0 c).arrAt 0 cfg0.N) ∗ entry_buf c main_v19 fullShare.right ((dats m 0 c).arrAt 1 cfg0.N)
      ∗ entry_buf c main_arg3 fullShare ((dats m 0 c).arrAt 2 cfg0.N) ∗ entry_buf c main_v20 fullShare ((dats m 0 c).arrAt 3 cfg0.N)) ∗ bypass m c) ⊢ _
  rw [a0, a1, a2]
  -- Re-bracket, then the two halves of the shared array are its full share again.
  refine BIBase.Entails.trans ?_ (sep_mono (sep_mono (entry_halves c main_v19 _).2 .rfl) .rfl)
  iintro ⟨⟨Hl, Hr, H3, H20⟩, Hby⟩
  isplitl [Hl Hr H3 H20]
  · isplitl [Hl Hr]
    · isplitl [Hl]; · iexact Hl
      iexact Hr
    isplitl [H3]; · iexact H3
    iexact H20
  iexact Hby

/-- Holding the unscoped buffers at a valuation beside a state's interpretation, that state's memory holds the
    valuation's contents at any one of them. -/
theorem held_read (c : Dev nD) (W : Valuation τ sig (Elt F)) (b : Ref sig .tc) (hb : Proc.devRef .tc b ∈ Pipeline.ucRefs τ sig)
    (s' : Phys nD τ sig (Elt F)) :
    iprop((StableHlo.held (c : Thread nD τ) (Pipeline.ucRefs τ sig) W : sProp 𝕄) ∗ SI s')
      ⊢ iprop(⌜s'.mem.mem ((c : Thread nD τ).loc b) = W (Proc.devRef .tc b)⌝
          ∗ (StableHlo.held (c : Thread nD τ) (Pipeline.ucRefs τ sig) W : sProp 𝕄) ∗ SI s') := by
  -- One buffer's points-to beside the others'.
  have key : (StableHlo.held (c : Thread nD τ) (Pipeline.ucRefs τ sig) W : sProp 𝕄)
      = iprop((((c : Thread nD τ).1, Proc.devRef .tc b) ↦{fullShare} W (Proc.devRef .tc b))
          ∗ StableHlo.held (c : Thread nD τ) ((Pipeline.ucRefs τ sig).erase (Proc.devRef .tc b)) W) := bigSep_erase hb
  rw [key]
  iintro ⟨⟨Hb, Hrest⟩, HSI⟩
  -- A points-to beside the state's interpretation says what the memory holds there.
  icombine HSI Hb gives %h
  isplitr
  · ipureintro; exact Buf.eq_of_forall_mem_univ h
  isplitl [Hb Hrest]
  · isplitl [Hb] <;> iassumption
  iexact HSI

end Cert.KernelIdeal.Hand

end
-- ==== Proof.KI.Args.lean ====
/-
  The arguments when the region is entered. None of the host operations before the region writes an argument
  array, so the region finds each as launched.
-/
import proofs.«157451_j90563680404074_1_alg».proof.Proof.KI.Data
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every reference that some host operation before the region writes: the thirty-eight results of the nine
    stretches, in program order. No argument is among them. -/
private abbrev hostWritten : List (Ref sig .tc) :=
  [main_v0, main_cst, main_v1, main_v2, main_call0_v0, main_call0_cst, main_call0_v1, main_v3,
   main_v4, main_cst_0, main_v5, main_v6, main_call1_v0, main_call1_cst, main_call1_v1, main_v7,
   main_v8, main_cst_1, main_v9, main_v10, main_call2_cst, main_call2_v0, main_v11,
   main_cst_2, main_v12, main_cst_3, main_v13, main_call3_v0, main_call3_cst, main_call3_v1, main_call3_v2, main_v14,
   main_cst_4, main_v15, main_v16, main_v17, main_v18, main_v19]

/-- One reference of that list, as a one-element set of device buffers, lies within the list's device buffers. -/
private theorem single_sub_written {y : Ref sig .tc} (h : y ∈ hostWritten) :
    ({Proc.devRef .tc y} : Finset (DevRef τ sig)) ⊆ (hostWritten.map (Proc.devRef (τ := τ) .tc)).toFinset :=
  Finset.singleton_subset_iff.mpr (List.mem_toFinset.mpr (List.mem_map_of_mem h))

/-- A reference outside that list holds at the region's entry what it held at launch: each operation writes its one
    result, every result is in the list, so each of the nine stretches in turn leaves the reference alone. -/
private theorem kept (c : Dev nD) (r : Ref sig .tc) (hr : r ∉ hostWritten) :
    W9 m c (Proc.devRef .tc r) = W0 m c (Proc.devRef .tc r) := by
  unfold W9
  rw [StableHlo.after_of_writes_sub hostOps0_8 _ ⟨single_sub_written (by decide), single_sub_written (by decide), single_sub_written (by decide), single_sub_written (by decide), single_sub_written (by decide), single_sub_written (by decide)⟩ hr]
  unfold W8
  rw [StableHlo.after_of_writes_sub hostOps0_7 _ ⟨single_sub_written (by decide), single_sub_written (by decide), single_sub_written (by decide), single_sub_written (by decide), single_sub_written (by decide)⟩ hr]
  unfold W7
  rw [StableHlo.after_of_writes_sub hostOps0_6 _ ⟨single_sub_written (by decide), single_sub_written (by decide), single_sub_written (by decide), single_sub_written (by decide)⟩ hr]
  unfold W6
  rw [StableHlo.after_of_writes_sub hostOps0_5 _ ⟨single_sub_written (by decide), single_sub_written (by decide), single_sub_written (by decide)⟩ hr]
  unfold W5
  rw [StableHlo.after_of_writes_sub hostOps0_4 _ ⟨single_sub_written (by decide), single_sub_written (by decide), single_sub_written (by decide), single_sub_written (by decide)⟩ hr]
  unfold W4
  rw [StableHlo.after_of_writes_sub hostOps0_3 _ ⟨single_sub_written (by decide), single_sub_written (by decide), single_sub_written (by decide), single_sub_written (by decide)⟩ hr]
  unfold W3
  rw [StableHlo.after_of_writes_sub hostOps0_2 _ ⟨single_sub_written (by decide), single_sub_written (by decide), single_sub_written (by decide), single_sub_written (by decide)⟩ hr]
  unfold W2
  rw [StableHlo.after_of_writes_sub hostOps0_1 _ ⟨single_sub_written (by decide), single_sub_written (by decide), single_sub_written (by decide), single_sub_written (by decide)⟩ hr]
  unfold W1
  rw [StableHlo.after_of_writes_sub hostOps0 _ ⟨single_sub_written (by decide), single_sub_written (by decide), single_sub_written (by decide), single_sub_written (by decide)⟩ hr]

/-- No host operation before the region writes an argument: the region finds each as launched. -/
theorem V_arg0 (c : Dev nD) : V m c main_arg0 = m ((c.tc : Thread nD τ).loc main_arg0) :=
  kept m c main_arg0 (by decide)
theorem V_arg1 (c : Dev nD) : V m c main_arg1 = m ((c.tc : Thread nD τ).loc main_arg1) :=
  kept m c main_arg1 (by decide)
theorem V_arg2 (c : Dev nD) : V m c main_arg2 = m ((c.tc : Thread nD τ).loc main_arg2) :=
  kept m c main_arg2 (by decide)
theorem V_arg3 (c : Dev nD) : V m c main_arg3 = m ((c.tc : Thread nD τ).loc main_arg3) :=
  kept m c main_arg3 (by decide)

end Cert.KernelIdeal.Hand

end
-- ==== Proof.KI.Kept.lean ====
/-
  The arguments at the end. None of the nineteen host operations around the region writes an argument array, and
  the region's one change to the buffers is to its own result array; so after the closing operations each of the
  four arguments holds what it held at launch.
-/
import proofs.«157451_j90563680404074_1_alg».proof.Proof.KI.Args
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The nine buffers the closing operations write: four constants and five results, the last being the
    program's result. -/
def kept_closingWrites : List (Ref sig .tc) :=
  [main_cst_5, main_v21, main_cst_6, main_v22, main_cst_7, main_v23, main_cst_8, main_v24, main_v25]

/-- A single reference of a list, as a device buffer, lies in the set of the list's device buffers. -/
theorem kept_single_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Each closing operation writes its one result buffer, which is among the nine. -/
theorem kept_closing_writes_sub :
    (hostOps1 : List (HloOp τ sig (Elt F))).Forall
      fun op => op.writes ⊆ (kept_closingWrites.map (Proc.devRef (τ := τ) .tc)).toFinset :=
  ⟨kept_single_sub (by decide), kept_single_sub (by decide), kept_single_sub (by decide), kept_single_sub (by decide),
    kept_single_sub (by decide), kept_single_sub (by decide), kept_single_sub (by decide), kept_single_sub (by decide),
    kept_single_sub (by decide)⟩

/-- A reference that is neither the kernel's result array nor one of the nine holds, after the closing operations,
    what the region found in it: the operations leave it alone, and the region changed the result array only. -/
theorem kept_unwritten (c : Dev nD) (b : Ref sig .tc) (hv : b ≠ main_v20) (hb : b ∉ kept_closingWrites) :
    StableHlo.after hostOps1 (Wexit m c) (Proc.devRef .tc b) = V m c b := by
  rw [StableHlo.after_of_writes_sub hostOps1 (Wexit m c) kept_closing_writes_sub hb]
  exact Function.update_of_ne (StableHlo.devRef_ne_of_ne hv) _ _

/-- After the closing host operations, run from the buffers as the region left them, each argument is as launched. -/
theorem final_arg0 (c : Dev nD) :
    StableHlo.after hostOps1 (Wexit m c) (Proc.devRef .tc main_arg0) = m ((c.tc : Thread nD τ).loc main_arg0) := by
  exact (kept_unwritten m c main_arg0 (by decide) (by decide)).trans (V_arg0 m c)
/-- The same for the second argument. -/
theorem final_arg1 (c : Dev nD) :
    StableHlo.after hostOps1 (Wexit m c) (Proc.devRef .tc main_arg1) = m ((c.tc : Thread nD τ).loc main_arg1) := by
  exact (kept_unwritten m c main_arg1 (by decide) (by decide)).trans (V_arg1 m c)
/-- The same for the third argument. -/
theorem final_arg2 (c : Dev nD) :
    StableHlo.after hostOps1 (Wexit m c) (Proc.devRef .tc main_arg2) = m ((c.tc : Thread nD τ).loc main_arg2) := by
  exact (kept_unwritten m c main_arg2 (by decide) (by decide)).trans (V_arg2 m c)
/-- The same for the fourth argument. -/
theorem final_arg3 (c : Dev nD) :
    StableHlo.after hostOps1 (Wexit m c) (Proc.devRef .tc main_arg3) = m ((c.tc : Thread nD τ).loc main_arg3) := by
  exact (kept_unwritten m c main_arg3 (by decide) (by decide)).trans (V_arg3 m c)

end Cert.KernelIdeal.Hand

end
-- ==== Proof.KI.Launch.lean ====
/-
  The launch: @main as a list of segments — the nine host stretches before the region, the region, the nine host
  operations after it — each entered from what the one before left. The region takes the normalised anchor's array
  for BOTH of its first two windows, half to each, the similarity matrix and the result array; everything else
  bypasses it. Its run: every weakly fair execution of @main terminates, nothing faulting, with the four argument
  arrays as launched and the result buffer at what the nine closing operations make of the buffers the region left.
-/
import proofs.«157451_j90563680404074_1_alg».proof.Proof.KI.Oblig
import proofs.«157451_j90563680404074_1_alg».proof.Proof.KI.Entry
import proofs.«157451_j90563680404074_1_alg».proof.Proof.KI.Kept

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Launch

/-- No core owes another anything: no level is assigned. -/
abbrev L : GSem nD τ sig → Finset Unit := fun _ => ∅
/-- The level of a pair, were one assigned: none is. -/
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: that the core owes nothing. -/
abbrev R (c : Dev nD) : sProp 𝕄 := iprop(∃ W, owes (c : Thread nD τ) (0 : CellTallies nD τ sig Unit) W)

local notation "ℍ" => Pipeline.HostSeg (Name := ℕ) (U := UR sig nD τ) (pcfgs (F := F)) defs₀ Variants.none L lv

/-- A stretch of host operations over the unscoped buffers, run from a valuation: it leaves them at the stretch's
    fold of that valuation. -/
def hseg (ops : List (HloOp τ sig (Elt F))) (hsub : ops.Forall fun op => op.bufs ⊆ StableHlo.tcRefs τ sig)
    (hf : ∀ op ∈ ops, op.fresh = ∅) (V : Dev nD → Valuation τ sig (Elt F)) : ℍ :=
  Pipeline.HostSeg.ofOps _ _ _ _ _ (Pipeline.ucRefs τ sig) ops
    (fun op h => Pipeline.sub_ucRefs op ((List.forall_iff_forall_mem.mp hsub) op h)) hf V R

/-- The nine stretches before the region, each run from the valuation the one before left. The first: the first
    argument minus the second, the small constant added. -/
def seg0 : ℍ := hseg hostOps0 hostOps0_sub (by intro _ h; (repeat (cases h with | head => rfl | tail _ h => ?_)); exact nomatch h) (W0 m)
/-- That array's norm along each row. -/
def seg1 : ℍ := hseg hostOps0_1 hostOps0_1_sub (by intro _ h; (repeat (cases h with | head => rfl | tail _ h => ?_)); exact nomatch h) (W1 m)
/-- The first argument minus the third, the small constant added. -/
def seg2 : ℍ := hseg hostOps0_2 hostOps0_2_sub (by intro _ h; (repeat (cases h with | head => rfl | tail _ h => ?_)); exact nomatch h) (W2 m)
/-- That array's norm along each row. -/
def seg3 : ℍ := hseg hostOps0_3 hostOps0_3_sub (by intro _ h; (repeat (cases h with | head => rfl | tail _ h => ?_)); exact nomatch h) (W3 m)
/-- The two norms' difference, the margin added. -/
def seg4 : ℍ := hseg hostOps0_4 hostOps0_4_sub (by intro _ h; (repeat (cases h with | head => rfl | tail _ h => ?_)); exact nomatch h) (W4 m)
/-- Its maximum with zero. -/
def seg5 : ℍ := hseg hostOps0_5 hostOps0_5_sub (by intro _ h; (repeat (cases h with | head => rfl | tail _ h => ?_)); exact nomatch h) (W5 m)
/-- The sum of those over the rows divided by their number: the triplet term. -/
def seg6 : ℍ := hseg hostOps0_6 hostOps0_6_sub (by intro _ h; (repeat (cases h with | head => rfl | tail _ h => ?_)); exact nomatch h) (W6 m)
/-- The first argument's norm along each row, as a column. -/
def seg7 : ℍ := hseg hostOps0_7 hostOps0_7_sub (by intro _ h; (repeat (cases h with | head => rfl | tail _ h => ?_)); exact nomatch h) (W7 m)
/-- The first argument divided by that norm bounded below, cast to bf16: the array the region reads twice. -/
def seg8 : ℍ := hseg hostOps0_8 hostOps0_8_sub (by intro _ h; (repeat (cases h with | head => rfl | tail _ h => ?_)); exact nomatch h) (W8 m)
/-- The closing stretch, run from the buffers as the region left them: the result block's sum over its 1024
    entries divided by 1024, then by 2^26, times one, added to the triplet term. -/
def seg10 : ℍ := hseg hostOps1 hostOps1_sub (by intro _ h; (repeat (cases h with | head => rfl | tail _ h => ?_)); exact nomatch h) (Wexit m)

set_option backward.isDefEq.respectTransparency.types false in
/-- THE REGION: entered from the buffers as the ninth stretch left them — its three arrays into the pipeline, the
    shared one half to each of its two windows, everything else bypassing —, left with the result array at what the
    write-backs made of it and every other buffer as found. The accumulator is the kernel's own scoped buffer: it
    reaches the invariant from the region boundary and returns to it. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (Wexit m c) ∗ R c)
  X c := iprop(emp)
  Y c := iprop(emp)
  Z c := bypass m c
  hentry c := by
    iintro ⟨⟨Hh, HO⟩, -, -⟩
    ihave H := (entry_split m c) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    refine (show _ ⊢ (Pipeline.scopedRest (Ix := Unit) (Name := ℕ) (U := UR sig nD τ) (Lvl := ℕ) (Val := Elt F) spec0 c : sProp 𝕄) from by
      iintro ⟨-, -, Hr⟩; iexact Hr).trans ?_
    rw [scopedRest0_eq]
    show _ ⊢ iprop(∃ d, owns (c : Thread nD τ) scM fullShare d)
    iintro ⟨%f, Hf⟩
    iexists f
    rw [owns_whole]
    iexact Hf
  hout c := by
    have hΦ : (dats m 0 c).Φ (Fin.last cfg0.N) = owns (c : Thread nD τ) scM fullShare (accAt m c 63) := by
      show phi m c (Fin.last cfg0.N).val = _
      rw [Fin.val_last, show cfg0.N = 63 + 1 from N_0]; rfl
    have hr : (owns (c : Thread nD τ) scM fullShare (accAt m c 63) : sProp 𝕄)
        ⊢ Pipeline.scopedRest (Ix := Unit) (Name := ℕ) (U := UR sig nD τ) (Lvl := ℕ) (Val := Elt F) spec0 c := by
      rw [scopedRest0_eq, owns_whole]; iintro H; iexists _; iexact H
    refine (Entails.of_eq hΦ).trans ?_
    rw [Pipeline.ownSems0_none]
    iintro H
    isplitr; · iempintro
    isplitr; · iempintro
    iapply hr; iexact H
  hexit c := by
    iintro ⟨Ha, HO, -, Hz⟩
    imodintro
    isplitr [HO]
    · iapply (exit_join m c)
      isplitl [Ha]; · iexact Ha
      iexact Hz
    · unfold Pipeline.Dat.owesAt Pipeline.owesWithin
      icases HO with ⟨%W, -, HO⟩; iexists W; iexact HO

/-- @main as the list of the eleven. -/
def segs : List (Pipeline.Seg (pcfgs (F := F)) adm (dats m) () defs₀ Variants.none L lv) :=
  [.host (seg0 m), .host (seg1 m), .host (seg2 m), .host (seg3 m), .host (seg4 m), .host (seg5 m), .host (seg6 m),
    .host (seg7 m), .host (seg8 m), .region (reg0 m), .host (seg10 m)]

/-- On every core @main is the run of the eleven segments. -/
theorem main_wp (c : Dev nD) (Q : PUnit → sProp 𝕄) :
    wp frame (wpE defs (Variants.lift Variants.none) (c : Thread nD τ) none) Set.univ (Pipeline.Seg.run (segs m)) Q
      ⊢ wp frame (wpE defs (Variants.lift Variants.none) (c : Thread nD τ) none) Set.univ (main (F := F) c) Q := by
  rw [main_chain c, Pipeline.Seg.run_eq_chain]
  exact .rfl

end Launch

open Launch

set_option backward.isDefEq.respectTransparency.types false in
/-- THE RUN of @main, at any float values: it ends, the arguments are unchanged, and the result is named. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v25) = StableHlo.after hostOps1 (Wexit m c) (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit (pcfgs (F := F)) adm (dats m) () cellOf_inj emb₁ defs₀ Variants.none L lv m ρ main (segs m)
    (main_wp m)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (W0 m c) ∗ R c))
    (Tₙ := fun c => StableHlo.held (c : Thread nD τ) (Pipeline.ucRefs τ sig) (StableHlo.after hostOps1 (Wexit m c)))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := ?hinit)
    (QY := fun c s =>
      s.mem ((c.tc : Thread nD τ).loc main_v25) = StableHlo.after hostOps1 (Wexit m c) (Proc.devRef .tc main_v25)
      ∧ s.mem ((c.tc : Thread nD τ).loc main_arg0) = StableHlo.after hostOps1 (Wexit m c) (Proc.devRef .tc main_arg0)
      ∧ s.mem ((c.tc : Thread nD τ).loc main_arg1) = StableHlo.after hostOps1 (Wexit m c) (Proc.devRef .tc main_arg1)
      ∧ s.mem ((c.tc : Thread nD τ).loc main_arg2) = StableHlo.after hostOps1 (Wexit m c) (Proc.devRef .tc main_arg2)
      ∧ s.mem ((c.tc : Thread nD τ).loc main_arg3) = StableHlo.after hostOps1 (Wexit m c) (Proc.devRef .tc main_arg3))
    (hfin := ?hfin)
    (hQ := ?hQ)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, -, -⟩, -⟩
    imodintro
    isplitl [Hh]; · iexact Hh
    iexists ∅; iexact HO
  case hfin =>
    intro c s'
    have hmem : ∀ b : Ref sig .tc, b.isScoped = false → Proc.devRef (τ := τ) .tc b ∈ Pipeline.ucRefs τ sig := fun b hb =>
      Finset.mem_filter.mpr ⟨StableHlo.devRef_mem_tcRefs b, fun h' => Bool.false_ne_true (hb.symm.trans h')⟩
    iintro ⟨Hh, HSI⟩
    ihave H := (held_read c _ main_v25 (hmem _ rfl) s') $$ [Hh HSI]
    · isplitl [Hh] <;> iassumption
    icases H with ⟨%h25, Hh, HSI⟩
    ihave H := (held_read c _ main_arg0 (hmem _ rfl) s') $$ [Hh HSI]
    · isplitl [Hh] <;> iassumption
    icases H with ⟨%h0, Hh, HSI⟩
    ihave H := (held_read c _ main_arg1 (hmem _ rfl) s') $$ [Hh HSI]
    · isplitl [Hh] <;> iassumption
    icases H with ⟨%h1, Hh, HSI⟩
    ihave H := (held_read c _ main_arg2 (hmem _ rfl) s') $$ [Hh HSI]
    · isplitl [Hh] <;> iassumption
    icases H with ⟨%h2, Hh, HSI⟩
    ihave H := (held_read c _ main_arg3 (hmem _ rfl) s') $$ [Hh HSI]
    · isplitl [Hh] <;> iassumption
    icases H with ⟨%h3, -, HSI⟩
    imodintro
    isplitr; · ipureintro; exact ⟨h25, h0, h1, h2, h3⟩
    iexact HSI
  case hQ =>
    intro s h c
    obtain ⟨h25, h0, h1, h2, h3⟩ := h c
    exact ⟨h25, h0.trans (final_arg0 m c), h1.trans (final_arg1 m c), h2.trans (final_arg2 m c), h3.trans (final_arg3 m c)⟩

end Cert.KernelIdeal.Hand

end
-- ==== Proof.Spec.lean ====
/-
  The mathematics of the claim, free of any program. With `A` the row-normalised anchor (8192 × 256) and `S` the
  similarity matrix (8192 × 8192), both programs compute the sum over all (R, C) of (⟨A_R, A_C⟩ − S_RC)². The
  reference takes it in one reduction; the kernel walks an 8 × 8 grid of 1024 × 1024 tiles row-major, adds each
  tile's sum into an accumulator that starts at zero, stores the total in all 1024 entries of an (8, 128) block, and
  the host takes that block's mean. Three facts join them, all on the extended reals, where addition is commutative
  and associative with no finiteness needed: the tiles' sums add up to the total (a re-indexing of one finite sum);
  the accumulator after point n is the sum of the tiles up to n; and the mean of 1024 copies of x is x.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the normalised anchor, of the similarity matrix and of the kernel's output block. -/
abbrev SA : Shape := ⟨2, ![8192, 256]⟩
abbrev SS : Shape := ⟨2, ![8192, 8192]⟩
abbrev SO : Shape := ⟨2, ![8, 128]⟩

/-- The cosine of rows R and C: their inner product over the 256 features. -/
def cosAt (A : SA.Idx → EReal) (R C : Fin 8192) : EReal := ∑ k : Fin 256, A (ix2 R k) * A (ix2 C k)

/-- The squared error of the cosine against the similarity matrix at (R, C). -/
def sqErr (A : SA.Idx → EReal) (S : SS.Idx → EReal) (R C : Fin 8192) : EReal :=
  (cosAt A R C - S (ix2 R C)) * (cosAt A R C - S (ix2 R C))

/-- Grid point `t` (row-major over 8 × 8) covers rows `(t / 8) · 1024 + r` -/
def rowOf (t : Fin 64) (r : Fin 1024) : Fin 8192 := ⟨(t.val / 8) * 1024 + r.val, by omega⟩
/-- and columns `(t % 8) · 1024 + c`. -/
def colOf (t : Fin 64) (c : Fin 1024) : Fin 8192 := ⟨(t.val % 8) * 1024 + c.val, by omega⟩

/-- What grid point `t` adds: its tile's squared errors, summed along each row and then over the rows. -/
def tileSum (A : SA.Idx → EReal) (S : SS.Idx → EReal) (t : Fin 64) : EReal :=
  ∑ r : Fin 1024, ∑ c : Fin 1024, sqErr A S (rowOf t r) (colOf t c)

/-- The whole matrix's squared errors, summed. -/
def total (A : SA.Idx → EReal) (S : SS.Idx → EReal) : EReal := ∑ R : Fin 8192, ∑ C : Fin 8192, sqErr A S R C

/-- A sum over 8192 indices is the sum over 8 blocks of the sums over each block's 1024 indices, block `p` holding
    the indices `p · 1024 + r`. -/
theorem sum_blocks {M : Type*} [AddCommMonoid M] (f : Fin 8192 → M) :
    ∑ p : Fin 8, ∑ r : Fin 1024, f ⟨p.val * 1024 + r.val, by omega⟩ = ∑ R : Fin 8192, f R := by
  have h := Fintype.sum_prod_type' (fun (p : Fin 8) (r : Fin 1024) => f ⟨p.val * 1024 + r.val, by omega⟩)
  refine h.symm.trans ?_
  refine Fintype.sum_equiv (finProdFinEquiv : Fin 8 × Fin 1024 ≃ Fin 8192) _ _ (fun x => ?_)
  obtain ⟨p, r⟩ := x
  refine congrArg f (Fin.ext ?_)
  show p.val * 1024 + r.val = r.val + 1024 * p.val
  omega

/-- A sum over the 64 row-major grid points is the double sum over the 8 × 8 coordinates, point `t` having the
    coordinates `(t / 8, t % 8)`. -/
theorem sum_grid {M : Type*} [AddCommMonoid M] (g : Fin 8 → Fin 8 → M) :
    ∑ t : Fin 64, g ⟨t.val / 8, by omega⟩ ⟨t.val % 8, by omega⟩ = ∑ p : Fin 8, ∑ q : Fin 8, g p q := by
  have h := Fintype.sum_prod_type' g
  refine Eq.trans ?_ h
  refine (Fintype.sum_equiv (finProdFinEquiv : Fin 8 × Fin 8 ≃ Fin 64) _ _ (fun x => ?_)).symm
  obtain ⟨p, q⟩ := x
  have hp : (q.val + 8 * p.val) / 8 = p.val := by omega
  have hq : (q.val + 8 * p.val) % 8 = q.val := by omega
  show g p q = g ⟨(q.val + 8 * p.val) / 8, _⟩ ⟨(q.val + 8 * p.val) % 8, _⟩
  congr 1
  · exact Fin.ext hp.symm
  · exact Fin.ext hq.symm

/-- The tiles partition the matrix: their sums add up to the total. -/
theorem tiles_total (A : SA.Idx → EReal) (S : SS.Idx → EReal) : ∑ t : Fin 64, tileSum A S t = total A S := by
  have hgrid := sum_grid (fun p q => ∑ r : Fin 1024, ∑ c : Fin 1024,
    sqErr A S ⟨p.val * 1024 + r.val, by omega⟩ ⟨q.val * 1024 + c.val, by omega⟩)
  calc ∑ t : Fin 64, tileSum A S t
      = ∑ p : Fin 8, ∑ q : Fin 8, ∑ r : Fin 1024, ∑ c : Fin 1024,
          sqErr A S ⟨p.val * 1024 + r.val, by omega⟩ ⟨q.val * 1024 + c.val, by omega⟩ := hgrid
    _ = ∑ p : Fin 8, ∑ r : Fin 1024, ∑ q : Fin 8, ∑ c : Fin 1024,
          sqErr A S ⟨p.val * 1024 + r.val, by omega⟩ ⟨q.val * 1024 + c.val, by omega⟩ :=
        Finset.sum_congr rfl (fun p _ => Finset.sum_comm)
    _ = ∑ p : Fin 8, ∑ r : Fin 1024, ∑ C : Fin 8192, sqErr A S ⟨p.val * 1024 + r.val, by omega⟩ C :=
        Finset.sum_congr rfl (fun p _ => Finset.sum_congr rfl (fun r _ =>
          sum_blocks (fun C => sqErr A S ⟨p.val * 1024 + r.val, by omega⟩ C)))
    _ = total A S := sum_blocks (fun R => ∑ C : Fin 8192, sqErr A S R C)

/-- The kernel's accumulation of per-point amounts `p`: zero plus the first, then each next one added on the right. -/
def accFold (p : ℕ → EReal) : ℕ → EReal
  | 0 => 0 + p 0
  | n + 1 => accFold p n + p (n + 1)

/-- It is the sum of the amounts up to `n`. -/
theorem accFold_eq_sum (p : ℕ → EReal) (n : ℕ) : accFold p n = ∑ t ∈ Finset.range (n + 1), p t := by
  induction n with
  | zero => rw [accFold, zero_add, Finset.sum_range_one]
  | succ n ih => rw [accFold, ih, Finset.sum_range_succ _ (n + 1)]

/-- After the 64 points the accumulator holds the total. -/
theorem accFold_tiles (A : SA.Idx → EReal) (S : SS.Idx → EReal) :
    accFold (fun n => if h : n < 64 then tileSum A S ⟨n, h⟩ else 0) 63 = total A S := by
  rw [accFold_eq_sum, ← tiles_total]
  have h := Fin.sum_univ_eq_sum_range (fun n => if h : n < 64 then tileSum A S ⟨n, h⟩ else 0) 64
  refine h.symm.trans ?_
  exact Finset.sum_congr rfl (fun t _ => dif_pos t.isLt)

/-- The sum of 1024 copies of `x`, indexed by the (8, 128) block, is `1024 • x`. -/
theorem sum_block_const (x : EReal) : ∑ _i : SO.Idx, x = 1024 • x := by
  rw [sum_idx2 (fun _ : SO.Idx => x)]
  simp only [Finset.sum_const, Finset.card_univ, Fintype.card_fin, smul_smul]
  norm_num

/-- The mean of an (8, 128) block whose 1024 entries all hold `x`, as the host takes it (zero plus the entries' sum,
    divided by 1024), is `x` — at the infinities too. -/
theorem mean_const (x : EReal) : Ideal.div (0 + ∑ _i : SO.Idx, x) ((1024 : ℝ) : EReal) = x := by
  rw [Ideal.div_coe (by norm_num : (1024 : ℝ) ≠ 0), zero_add, sum_block_const]
  have hpos : (0 : ℝ) < 1 / 1024 := by norm_num
  induction x using EReal.rec with
  | bot =>
    rw [EReal.nsmul_eq_mul, ← EReal.coe_coe_eq_natCast, EReal.coe_mul_bot_of_pos (by norm_num),
      EReal.bot_mul_coe_of_pos hpos]
  | top =>
    rw [EReal.nsmul_eq_mul, ← EReal.coe_coe_eq_natCast, EReal.coe_mul_top_of_pos (by norm_num),
      EReal.top_mul_coe_of_pos hpos]
  | coe r =>
    rw [← EReal.coe_nsmul, ← EReal.coe_mul]
    congr 1
    rw [nsmul_eq_mul]
    push_cast
    ring

/-- The f32 words of the two divisors and of the unit factor denote 1024, 2²⁶ and 1. -/
theorem ofBits_1024 : Ideal.ofBits .f32 0x44800000#32 = ((1024 : ℝ) : EReal) := by
  simp [Ideal.ofBits, Ideal.ieee, -EReal.coe_mul]; norm_num
/-- The f32 word of the unit factor denotes the real 1. -/
theorem ofBits_one : Ideal.ofBits .f32 0x3F800000#32 = ((1 : ℝ) : EReal) := by
  simp [Ideal.ofBits, Ideal.ieee, -EReal.coe_mul]; norm_num
/-- The f32 word of the second divisor denotes the real 2²⁶ = 67108864. -/
theorem ofBits_2p26 : Ideal.ofBits .f32 0x4C800000#32 = ((67108864 : ℝ) : EReal) := by
  simp [Ideal.ofBits, Ideal.ieee, -EReal.coe_mul]; norm_num

end Cert.Spec

end
-- ==== Proof.KI.ValueK.lean ====
/-
  What the kernel region computes, read at an index. Generic in the float values: the result array after the run is
  the accumulator after the last point (the only write-back is the last point's, of the whole block). At the ideal
  values: a point's update adds to every lane the sum, over the tile's rows and then columns, of the squared
  difference between the inner product of a row of the row tile with a row of the column tile and the similarity
  tile's entry — the specification's tile sum at the rows and columns the point's blocks cover — so the accumulator
  after point `n` holds, in every lane, the specification's fold of the tile sums up to `n`.
-/
import proofs.«157451_j90563680404074_1_alg».proof.Proof.KI.Data
import proofs.«157451_j90563680404074_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The last point, the only one that writes the output block back. -/
abbrev vk_tLast : Fin cfg0.N := ⟨63, by decide⟩

/-- At the last point the output block sits at offset zero on both axes of its array. -/
theorem vk_hzOut : (fun a => win0_3.index vk_tLast a * main_v20.ty.shape.size a) = fun _ => 0 := funext fun a => by fin_cases a <;> decide +kernel

/-- What the one write-back (the last point's) writes is the accumulator after the last point, read through the
    point's block — which is the whole (8, 128) array, read at offset zero. -/
theorem vk_flushedOut_eq {F : FTy → Type} [FloatOps F] (m : (ℓ : Loc nD τ sig) → Buf (Elt F) ℓ) (c : Dev nD) (t : Fin cfg0.N) (hf : (cfg0.win 3).flush t = true) :
    (dats m 0 c).flushed 3 t = ((cfg0.win 3).blk t).view.read (Elt F) (accAt m c 63) := by
  have hN : cfg0.N = 64 := N_0
  have h63 : t.val = 63 := by have := (flush0_3 t).mp hf; have := t.isLt; omega
  obtain rfl : t = vk_tLast := Fin.ext h63
  show (cfg0.win 3).cut (grid0.coords vk_tLast) ((dats m 0 c).after 3 vk_tLast) = _
  dsimp only [dats]
  exact (Memref.read_access_unit_zero (Elt F) main_v20 vk_hzOut (fun a => by rw [congrFun vk_hzOut a]; simp) (accAt m c 63)).symm

/-- Every index of the (8, 128) result array lies in the last point's block. -/
theorem vk_coverOut (i : S8x128.Idx) : i ∈ ((cfg0.win 3).blk vk_tLast).view.set := by
  show i ∈ ((View.whole main_v20).slice (win0_3.rect vk_tLast)).set
  rw [View.set_slice_whole, Rect.mem_set_unit]
  intro a
  have h0 : (i 0 : Nat) < 8 := (i 0).isLt
  have h1 : (i 1 : Nat) < 128 := (i 1).isLt
  match a with
  | ⟨0, _⟩ =>
    show win0_3.index vk_tLast 0 * win0_3.size 0 ≤ (i 0 : Nat) ∧ (i 0 : Nat) < win0_3.index vk_tLast 0 * win0_3.size 0 + win0_3.xsize (grid0.coords vk_tLast) 0
    rw [show win0_3.index vk_tLast 0 * win0_3.size 0 = 0 from by decide +kernel, show win0_3.xsize (grid0.coords vk_tLast) 0 = 8 from by decide +kernel]; omega
  | ⟨1, _⟩ =>
    show win0_3.index vk_tLast 1 * win0_3.size 1 ≤ (i 1 : Nat) ∧ (i 1 : Nat) < win0_3.index vk_tLast 1 * win0_3.size 1 + win0_3.xsize (grid0.coords vk_tLast) 1
    rw [show win0_3.index vk_tLast 1 * win0_3.size 1 = 0 from by decide +kernel, show win0_3.xsize (grid0.coords vk_tLast) 1 = 128 from by decide +kernel]; omega

/-- THE RESULT ARRAY after the run is the accumulator after the last point, at any float values. -/
theorem out_final {F : FTy → Type} [FloatOps F] (m : (ℓ : Loc nD τ sig) → Buf (Elt F) ℓ) (c : Dev nD) :
    (dats m 0 c).arrAt 3 cfg0.N = accAt m c 63 :=
  (dats m 0 c).arrAt_eq_of_cover 3 (accAt m c 63) (vk_flushedOut_eq m c) fun i =>
    ⟨vk_tLast, (flush0_3 vk_tLast).mpr rfl, vk_coverOut i⟩

/-- A vector of 1024 entries viewed as a 1024 × 1 column reads, at (r, u), entry r. -/
theorem vk_cast_a_a1_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A 1 × 1 block broadcast to (8, 128) reads its one entry everywhere. -/
theorem vk_bcast_11_apply {α : Type} (x : S1x1.Idx → α) (h : S1x1.Broadcasts S8x128) (a : Fin 8) (b : Fin 128) :
    broadcastTo S8x128 x h (ix2 a b) = x (ix2 (0 : Fin 1) (0 : Fin 1)) := by
  refine broadcastTo_apply x h (ix2 a b) (ix2 (0 : Fin 1) (0 : Fin 1)) fun ax => ?_
  match ax with
  | ⟨0, _⟩ => rfl
  | ⟨1, _⟩ => rfl

/-- The index of the 1024 × 1 column over the one entry of its column sum, with row coordinate r, is (r, 0). -/
theorem vk_lift_col (r : Fin 1024) : reduces_S1024x1_S1.lift (ix1 (0 : Fin 1)) r = ix2 r (0 : Fin 1) :=
  funext fun ax => Fin.ext (by
    match ax with
    | ⟨0, _⟩ => rfl
    | ⟨1, _⟩ => rfl)

/-- The index of the 1024 × 1024 tile over entry r of its row sums, with column coordinate c, is (r, c). -/
theorem vk_lift_row (r c : Fin 1024) : reduces_S1024x1024_S1024.lift (ix1 r) c = ix2 r c :=
  funext fun ax => Fin.ext (by
    match ax with
    | ⟨0, _⟩ => rfl
    | ⟨1, _⟩ => rfl)

/-- The two lane sums, the unit-axis casts between them and the broadcast: every lane of the (8, 128) block reads the
    sum of the 1024 × 1024 tile over its rows and, along each row, its columns. -/
theorem vk_lanes_apply (y : FVec Ideal S1024x1024 .f32) (a : Fin 8) (b : Fin 128) :
    broadcastTo S8x128 (shapeCast S1x1 (multiReduction .add [0] S1
        (shapeCast S1024x1 (multiReduction .add [1] S1024 y 0x00000000#32 reduces_S1024x1024_S1024 (.inl rfl) rfl) shapeCasts_S1024_S1024x1)
        0x00000000#32 reduces_S1024x1_S1 (.inl rfl) rfl) shapeCasts_S1_S1x1) broadcasts_S1x1_S8x128 (ix2 a b)
      = ∑ r : Fin 1024, ∑ c : Fin 1024, y (ix2 r c) := by
  rw [vk_bcast_11_apply]
  refine (shapeCast_a_1a_apply _ shapeCasts_S1_S1x1 (0 : Fin 1) (0 : Fin 1)).trans ?_
  refine (Ideal.multiReduction_add_single (φ := .f32) _ 0x00000000#32 reduces_S1024x1_S1 (.inl rfl) rfl (ix1 (0 : Fin 1))).trans ?_
  refine Finset.sum_congr rfl fun r _ => ?_
  rw [vk_lift_col r]
  refine (vk_cast_a_a1_apply _ shapeCasts_S1024_S1024x1 r (0 : Fin 1)).trans ?_
  refine (Ideal.multiReduction_add_single (φ := .f32) y 0x00000000#32 reduces_S1024x1024_S1024 (.inl rfl) rfl (ix1 r)).trans ?_
  refine Finset.sum_congr rfl fun c _ => ?_
  rw [vk_lift_row r c]

/-- The product's dimension record: both operands contract their feature axis (axis 1). -/
abbrev vk_dd : DotDims S1024x256 S1024x256 S1024x1024 := dot_S1024x256_S1024x256_S1024x1024_1_1_0_0_n_n

/-- The left operand's row coordinate is the result's row coordinate, -/
theorem vk_mm_lhs_0 (i : S1024x1024.Idx) (q : vk_dd.contr.Idx) : (vk_dd.lhsIdx i q 0).val = (i 0).val := by
  unfold DotDims.lhsIdx
  rw [dif_neg (show ¬(0 : Fin S1024x256.rank) ∈ vk_dd.lhsBatch by decide), dif_pos (show (0 : Fin S1024x256.rank) ∈ vk_dd.lhsNonContracting by decide)]
  rfl
/-- its feature coordinate the contraction's one coordinate; -/
theorem vk_mm_lhs_1 (i : S1024x1024.Idx) (q : vk_dd.contr.Idx) : (vk_dd.lhsIdx i q 1).val = (q ⟨0, by decide⟩).val :=
  vk_dd.lhsIdx_val_of_single rfl i q
/-- the right operand's row coordinate is the result's column coordinate, -/
theorem vk_mm_rhs_0 (i : S1024x1024.Idx) (q : vk_dd.contr.Idx) : (vk_dd.rhsIdx i q 0).val = (i 1).val := by
  unfold DotDims.rhsIdx
  rw [dif_neg (show ¬(0 : Fin S1024x256.rank) ∈ vk_dd.rhsBatch by decide), dif_pos (show (0 : Fin S1024x256.rank) ∈ vk_dd.rhsNonContracting by decide)]
  rfl
/-- and its feature coordinate the contraction's one coordinate. -/
theorem vk_mm_rhs_1 (i : S1024x1024.Idx) (q : vk_dd.contr.Idx) : (vk_dd.rhsIdx i q 1).val = (q ⟨0, by decide⟩).val :=
  vk_dd.rhsIdx_val_of_single rfl i q

/-- The product of the row tile with the transposed column tile, accumulated into zero, reads at (r, c) the inner
    product over the 256 features of row r of the first with row c of the second. -/
theorem vk_mm_apply (x0 x1 : FVec Ideal S1024x256 .bf16) (r c : Fin 1024) :
    matmul vk_dd none x0 x1 (constant S1024x1024 .f32 0x00000000#32) (ix2 r c) = ∑ k : Fin 256, x0 (ix2 r k) * x1 (ix2 c k) := by
  show FloatOps.matmul vk_dd none x0 x1 (constant S1024x1024 .f32 0x00000000#32) (ix2 r c) = _
  rw [Ideal.matmul_constant_zero_apply, ← Equiv.sum_comp (contrEquiv1 vk_dd 256 rfl rfl).symm]
  refine Finset.sum_congr rfl fun k _ => ?_
  have hk := contrEquiv1_symm_val vk_dd 256 rfl rfl k
  have el : vk_dd.lhsIdx (ix2 r c) ((contrEquiv1 vk_dd 256 rfl rfl).symm k) = ix2 r k := funext fun a => Fin.ext (by
    match a with
    | ⟨0, _⟩ => exact vk_mm_lhs_0 _ _
    | ⟨1, _⟩ => exact (vk_mm_lhs_1 _ _).trans hk)
  have er : vk_dd.rhsIdx (ix2 r c) ((contrEquiv1 vk_dd 256 rfl rfl).symm k) = ix2 c k := funext fun a => Fin.ext (by
    match a with
    | ⟨0, _⟩ => exact vk_mm_rhs_0 _ _
    | ⟨1, _⟩ => exact (vk_mm_rhs_1 _ _).trans hk)
  rw [el, er]

/-- THE UPDATE, at the ideal values, in every lane: the old accumulator plus the sum over the tile's rows and columns of
    the squared difference between the rows' inner product and the similarity entry. -/
theorem vk_pay2_apply (x0 x1 : Vec Ideal S1024x256 .bf16) (x2 : Vec Ideal S1024x1024 .f32) (s : Vec Ideal S8x128 .f32) (a : Fin 8) (b : Fin 128) :
    k0_pay2 x0 x1 x2 s (ix2 a b) = s (ix2 a b) + ∑ r : Fin 1024, ∑ c : Fin 1024,
      ((∑ k : Fin 256, x0 (ix2 r k) * x1 (ix2 c k)) - x2 (ix2 r c)) * ((∑ k : Fin 256, x0 (ix2 r k) * x1 (ix2 c k)) - x2 (ix2 r c)) := by
  unfold k0_pay2
  simp only [shapeCast_self]
  refine (addf_apply _ _ _).trans ?_
  refine congrArg (s (ix2 a b) + ·) ?_
  refine (vk_lanes_apply _ a b).trans ?_
  refine Finset.sum_congr rfl fun r _ => Finset.sum_congr rfl fun c _ => ?_
  refine (mulf_apply _ _ _).trans ?_
  rw [subf_apply, vk_mm_apply]

/-- THE CLEARED ACCUMULATOR is zero in every lane. -/
theorem vk_pay1_apply (a : Fin 8) (b : Fin 128) : k0_pay1 (F := Ideal) (ix2 a b) = 0 := by
  unfold k0_pay1
  simp only [shapeCast_self]
  exact Ideal.ofBits_zero_f32

/-- The windows' block indices over the grid: the row tile follows the point's first coordinate, the column tile its
    second, the similarity tile both. -/
theorem vk_idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

section Blocks
variable {F : FTy → Type} [FloatOps F] (m : (ℓ : Loc nD τ sig) → Buf (Elt F) ℓ) (c : Dev nD)

/-- Row r of a point's row tile is row (t / 8) · 1024 + r of the normalised anchor. -/
theorem vk_rowBlk_apply (t : Fin cfg0.N) (r : Fin 1024) (k : Fin 256) (R : Fin 8192) (hR : R.val = (t.val / 8) * 1024 + r.val) :
    rowBlk m c t (ix2 r k) = V m c main_v19 (ix2 R k) := by
  obtain ⟨e0, e1, e2, e3, e4, e5⟩ := vk_idx_facts t
  unfold rowBlk iblk
  rw [View.read_apply]
  show V m c main_v19 _ = V m c main_v19 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 256 + 1 * k.val = k.val; rw [e1]; omega

/-- Row cc of its column tile is row (t % 8) · 1024 + cc of the same array. -/
theorem vk_colBlk_apply (t : Fin cfg0.N) (cc : Fin 1024) (k : Fin 256) (C : Fin 8192) (hC : C.val = (t.val % 8) * 1024 + cc.val) :
    colBlk m c t (ix2 cc k) = V m c main_v19 (ix2 C k) := by
  obtain ⟨e0, e1, e2, e3, e4, e5⟩ := vk_idx_facts t
  unfold colBlk iblk
  rw [View.read_apply]
  show V m c main_v19 _ = V m c main_v19 _
  congr 1
  funext a
  apply Fin.ext
  match a with
  | ⟨0, _⟩ => show win0_1.index t (0 : Fin 2) * 1024 + 1 * cc.val = C.val; rw [e2, hC]; omega
  | ⟨1, _⟩ => show win0_1.index t (1 : Fin 2) * 256 + 1 * k.val = k.val; rw [e3]; omega

/-- Entry (r, cc) of its similarity tile is entry ((t / 8) · 1024 + r, (t % 8) · 1024 + cc) of the similarity matrix. -/
theorem vk_simBlk_apply (t : Fin cfg0.N) (r cc : Fin 1024) (R C : Fin 8192) (hR : R.val = (t.val / 8) * 1024 + r.val)
    (hC : C.val = (t.val % 8) * 1024 + cc.val) :
    simBlk m c t (ix2 r cc) = V m c main_arg3 (ix2 R C) := by
  obtain ⟨e0, e1, e2, e3, e4, e5⟩ := vk_idx_facts t
  unfold simBlk iblk
  rw [View.read_apply]
  show V m c main_arg3 _ = V m c main_arg3 _
  congr 1
  funext a
  apply Fin.ext
  match a with
  | ⟨0, _⟩ => show win0_2.index t (0 : Fin 2) * 1024 + 1 * r.val = R.val; rw [e4, hR]; omega
  | ⟨1, _⟩ => show win0_2.index t (1 : Fin 2) * 1024 + 1 * cc.val = C.val; rw [e5, hC]; omega

end Blocks

/-- A POINT'S ADDEND IS THE SPECIFICATION'S TILE SUM: with the three blocks read off the arrays at the rows and columns
    the point covers, the double sum of squared differences is the tile sum at that point. -/
theorem vk_tile_eq (A : S8192x256.Idx → EReal) (S : S8192x8192.Idx → EReal) (x0 x1 : S1024x256.Idx → EReal)
    (x2 : S1024x1024.Idx → EReal) (t : Fin 64)
    (h0 : ∀ r k, x0 (ix2 r k) = A (ix2 (Cert.Spec.rowOf t r) k))
    (h1 : ∀ cc k, x1 (ix2 cc k) = A (ix2 (Cert.Spec.colOf t cc) k))
    (h2 : ∀ r cc, x2 (ix2 r cc) = S (ix2 (Cert.Spec.rowOf t r) (Cert.Spec.colOf t cc))) :
    (∑ r : Fin 1024, ∑ cc : Fin 1024, ((∑ k : Fin 256, x0 (ix2 r k) * x1 (ix2 cc k)) - x2 (ix2 r cc))
        * ((∑ k : Fin 256, x0 (ix2 r k) * x1 (ix2 cc k)) - x2 (ix2 r cc)))
      = Cert.Spec.tileSum A S t := by
  unfold Cert.Spec.tileSum Cert.Spec.sqErr Cert.Spec.cosAt
  refine Finset.sum_congr rfl fun r _ => Finset.sum_congr rfl fun cc _ => ?_
  have hs : (∑ k : Fin 256, x0 (ix2 r k) * x1 (ix2 cc k))
      = ∑ k : Fin 256, A (ix2 (Cert.Spec.rowOf t r) k) * A (ix2 (Cert.Spec.colOf t cc) k) :=
    Finset.sum_congr rfl fun k _ => by rw [h0 r k, h1 cc k]
  rw [hs, h2 r cc]

/-- The update at point t of an accumulator s adds, in every lane, the tile sum at t. -/
theorem vk_step_apply (m : (ℓ : Loc nD τ sig) → Buf (Elt Ideal) ℓ) (c : Dev nD) (t : Fin cfg0.N) (h : t.val < 64)
    (s : Vec Ideal S8x128 .f32) (a : Fin 8) (b : Fin 128) :
    k0_pay2 (rowBlk m c t) (colBlk m c t) (simBlk m c t) s (ix2 a b)
      = s (ix2 a b) + Cert.Spec.tileSum (V m c main_v19) (V m c main_arg3) ⟨t.val, h⟩ := by
  refine (vk_pay2_apply _ _ _ s a b).trans (congrArg (s (ix2 a b) + ·) ?_)
  exact vk_tile_eq (V m c main_v19) (V m c main_arg3) (rowBlk m c t) (colBlk m c t) (simBlk m c t) ⟨t.val, h⟩
    (fun r k => vk_rowBlk_apply m c t r k _ rfl) (fun cc k => vk_colBlk_apply m c t cc k _ rfl)
    (fun r cc => vk_simBlk_apply m c t r cc _ _ rfl rfl)

/-- AT THE IDEAL VALUES every lane of the accumulator after point `n` is the fold of the tile sums up to `n`, the
    tiles cut from the normalised anchor's array and the similarity matrix as the region found them. -/
theorem acc_apply (m : (ℓ : Loc nD τ sig) → Buf (Elt Ideal) ℓ) (c : Dev nD) (n : ℕ) (hn : n < 64) (a : Fin 8) (b : Fin 128) :
    accAt m c n (ix2 a b)
      = Cert.Spec.accFold (fun k => if h : k < 64 then Cert.Spec.tileSum (V m c main_v19) (V m c main_arg3) ⟨k, h⟩ else 0) n := by
  induction n with
  | zero =>
    show k0_pay2 (rowBlk m c ⟨0, _⟩) (colBlk m c ⟨0, _⟩) (simBlk m c ⟨0, _⟩) (k0_pay1 (F := Ideal)) (ix2 a b) = _
    rw [vk_step_apply m c ⟨0, by decide⟩ (by decide), vk_pay1_apply]
    show _ = 0 + (if h : 0 < 64 then Cert.Spec.tileSum (V m c main_v19) (V m c main_arg3) ⟨0, h⟩ else 0)
    rw [dif_pos (by decide)]
  | succ n ih =>
    have h1 : n + 1 < cfg0.N := by rw [show cfg0.N = 64 from N_0]; exact hn
    show (if h : n + 1 < cfg0.N then k0_pay2 (rowBlk m c ⟨n + 1, h⟩) (colBlk m c ⟨n + 1, h⟩) (simBlk m c ⟨n + 1, h⟩) (accAt m c n)
      else accAt m c n) (ix2 a b) = _
    rw [dif_pos h1, vk_step_apply m c ⟨n + 1, h1⟩ hn, ih (by omega)]
    show _ = Cert.Spec.accFold _ n + (if h : n + 1 < 64 then Cert.Spec.tileSum (V m c main_v19) (V m c main_arg3) ⟨n + 1, h⟩ else 0)
    rw [dif_pos hn]

end Cert.KernelIdeal.Hand

end
-- ==== Proof.KI.ValueH.lean ====
/-
  The host operations around the region, read as values. Before the region both programs run the same text: the
  triplet term (two row norms of shifted differences, a margin, a rectifier, a mean) and the row-normalised anchor;
  the kernel then casts the anchor to bf16, which at the ideal values changes nothing. So the buffers the region
  finds hold exactly the reference's own stage functions of the arguments, and the arguments themselves are never
  written. After the region nine operations take the result block's mean, divide by 2²⁶, multiply by one and add
  the triplet term: one function of the triplet term and the block.
-/
import proofs.«157451_j90563680404074_1_alg».proof.Proof.KI.Data
import proofs.«157451_j90563680404074_1_alg».proof.Proof.KI.Args
import proofs.«157451_j90563680404074_1_alg».proof.Proof.Gen.ReferenceIdeal.Read
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

section AnyValues

variable {F : FTy → Type} [FloatOps F] (m : (ℓ : Loc nD τ sig) → Buf (Elt F) ℓ)

/-- At any values: the triplet term's buffer at the region's entry is the twenty-seven operations that lead to it, composed,
    of the three arguments as launched — reading each operand back through the stretches to the operation that wrote
    it gives the same term the reference's stage functions unfold to. -/
theorem vh_triplet_any (c : Dev nD) :
    V m c main_v13 = Cert.ReferenceIdeal.Read.val_main_v13 (F := F) (m ((c.tc : Thread nD τ).loc main_arg0))
      (m ((c.tc : Thread nD τ).loc main_arg1)) (m ((c.tc : Thread nD τ).loc main_arg2)) := by
  show W9 m c (Proc.devRef .tc main_v13) = _
  unfold W9 W8 W7 W6 W5 W4 W3 W2 W1
  after_results_simp
  rfl

/-- At any values: the array the region reads is the reference's normalised anchor of the first argument, cast to
    bf16. -/
theorem vh_anchor_any (c : Dev nD) :
    V m c main_v19 = truncf .bf16 (Cert.ReferenceIdeal.Read.val_main_v18 (F := F) (m ((c.tc : Thread nD τ).loc main_arg0)))
      Gen.bitsLt_bf16_f32 := by
  show W9 m c (Proc.devRef .tc main_v19) = _
  unfold W9 W8 W7 W6 W5 W4 W3 W2 W1
  after_results_simp
  rfl

/-- The nine operations after the region as one function of the triplet term and the result block: the block's sum
    from zero, over 1024, over 2²⁶, times one, plus the triplet term. -/
def tailFn (t : (⟨S_, .f32⟩ : BufTy).Contents (Elt F)) (out : (⟨S8x128, .f32⟩ : BufTy).Contents (Elt F)) : (⟨S_, .f32⟩ : BufTy).Contents (Elt F) :=
  addf t (mulf (constant S_ .f32 0x3F800000#32)
    (Host.divf (Host.divf (Host.reduceAdd out (constant S_ .f32 0x00000000#32) Facts₀.reducesTo_S8x128_S_d0_1 Facts₀.h_S_)
      (constant S_ .f32 0x44800000#32)) (constant S_ .f32 0x4C800000#32)))

/-- The result buffer after the closing operations is that function of the triplet term's buffer and the kernel's
    result array as the region left them: the nine operations read only their own results, the triplet term's buffer
    (which the region's exit leaves as it was) and the result array (which holds what the write-backs left). -/
theorem tail_eq (c : Dev nD) :
    StableHlo.after hostOps1 (Wexit m c) (Proc.devRef .tc main_v25) = tailFn (V m c main_v13) ((dats m 0 c).arrAt 3 cfg0.N) := by
  show StableHlo.after hostOps1 _ (Proc.devRef .tc main_v25) = _
  after_results
  unfold Wexit tailFn
  rw [Function.update_self, Function.update_of_ne (StableHlo.devRef_ne_of_ne (by decide))]

end AnyValues

section IdealValues

variable (m : (ℓ : Loc nD τ sig) → Buf (Elt Ideal) ℓ)

/-- The triplet term's buffer holds the reference's own triplet stage of the three arguments. -/
theorem V_triplet (c : Dev nD) :
    V m c main_v13 = Cert.ReferenceIdeal.Read.val_main_v13 (F := Ideal) (m ((c.tc : Thread nD τ).loc main_arg0))
      (m ((c.tc : Thread nD τ).loc main_arg1)) (m ((c.tc : Thread nD τ).loc main_arg2)) :=
  vh_triplet_any m c

/-- The array the region reads through its two windows holds the reference's own normalised anchor (the cast to
    bf16 is the identity at the ideal values). -/
theorem V_anchor (c : Dev nD) :
    V m c main_v19 = Cert.ReferenceIdeal.Read.val_main_v18 (F := Ideal) (m ((c.tc : Thread nD τ).loc main_arg0)) :=
  vh_anchor_any m c

end IdealValues

end Cert.KernelIdeal.Hand

end
-- ==== Proof.RefValue.lean ====
/-
  The reference's reduction, read at the ideal values: the sum from zero over the whole 8192 × 8192 matrix of the
  squared difference between the product of the normalised anchor with its transpose and the similarity matrix is
  the specification's total of the normalised anchor and the similarity matrix.
-/
import proofs.«157451_j90563680404074_1_alg».proof.Proof.Gen.ReferenceIdeal.Read
import proofs.«157451_j90563680404074_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.ShloMosaic.ValueIdx

/-- At output position (R, C) and feature k, the product's left operand is read at (R, k). -/
theorem lidx_at (R C : Fin 8192) (k : Fin 256) : lidx_main_v20 (ix2 R C) k = ix2 R k :=
  funext fun a => Fin.ext (by match a with | ⟨0, _⟩ => rfl | ⟨1, _⟩ => rfl)

/-- At output position (R, C) and feature k, the product's right operand is the transpose read at (k, C), which is
    the normalised anchor itself read at (C, k). -/
theorem ridx_at (R C : Fin 8192) (k : Fin 256) : idx_main_v19 (ridx_main_v20 (ix2 R C) k) = ix2 C k :=
  funext fun a => Fin.ext (by match a with | ⟨0, _⟩ => rfl | ⟨1, _⟩ => rfl)

/-- The product of the normalised anchor with its transpose, at (R, C), is the cosine of rows R and C:
    Σₖ A(R, k) · Aᵀ(k, C) = Σₖ A(R, k) · A(C, k). -/
theorem dot_at (x0 : (⟨S8192x256, .f32⟩ : BufTy).Contents (Elt Ideal)) (R C : Fin 8192) :
    val_main_v20 (F := Ideal) x0 (ix2 R C) = Cert.Spec.cosAt (val_main_v18 (F := Ideal) x0) R C := by
  rw [val_main_v20_apply]
  unfold Cert.Spec.cosAt
  refine Finset.sum_congr rfl fun k _ => ?_
  rw [val_main_v19_apply, lidx_at, ridx_at]

/-- The squared difference at (R, C) is the specification's squared error there:
    (cos(R, C) − S(R, C)) · (cos(R, C) − S(R, C)). -/
theorem sq_at (x0 : (⟨S8192x256, .f32⟩ : BufTy).Contents (Elt Ideal)) (x3 : (⟨S8192x8192, .f32⟩ : BufTy).Contents (Elt Ideal))
    (R C : Fin 8192) :
    val_main_v22 (F := Ideal) x0 x3 (ix2 R C) = Cert.Spec.sqErr (val_main_v18 (F := Ideal) x0) x3 R C := by
  rw [val_main_v22_apply, val_main_v21_apply, dot_at, Ideal.mulf_def, Ideal.subf_def]
  rfl

/-- THE REFERENCE'S TOTAL: its `reduce add` over both axes of the squared differences, from the constant zero. -/
theorem ref_total (x0 : (⟨S8192x256, .f32⟩ : BufTy).Contents (Elt Ideal)) (x3 : (⟨S8192x8192, .f32⟩ : BufTy).Contents (Elt Ideal)) :
    val_main_v23 (F := Ideal) x0 x3 ix0 = Cert.Spec.total (val_main_v18 (F := Ideal) x0) x3 := by
  -- The reduction is its initial value, the constant zero, plus the sum over every index of the matrix.
  rw [val_main_v23_apply, val_main_cst_5_apply, Ideal.ofBits_def, Ideal.ofBits_zero_f32, zero_add]
  -- A sum over the rank-2 indices is the double sum over rows and columns; entry by entry it is the squared error.
  unfold Cert.Spec.total
  rw [sum_idx2]
  exact Finset.sum_congr rfl fun R _ => Finset.sum_congr rfl fun C _ => sq_at x0 x3 R C

end Cert.RefValue

end
-- ==== Proof.Bridge.lean ====
/-
  The two sides joined, at the ideal values. The kernel's result is the triplet term plus one times the mean of its
  (8, 128) result block over 2²⁶; every entry of that block is the accumulator's value after the last grid point, the
  sum of the 64 tiles' squared errors, which is the whole matrix's sum; and the mean of 1024 copies of a number is the
  number. The reference's result is the triplet term plus one times that same sum over 2²⁶. Both triplet terms are one
  function of the arguments, and so are both normalised anchors: neither is opened.
-/
import proofs.«157451_j90563680404074_1_alg».proof.Proof.KI.Launch
import proofs.«157451_j90563680404074_1_alg».proof.Proof.KI.ValueK
import proofs.«157451_j90563680404074_1_alg».proof.Proof.KI.ValueH
import proofs.«157451_j90563680404074_1_alg».proof.Proof.RefValue
import proofs.«157451_j90563680404074_1_alg».proof.Proof.Spec

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

/-- The host's sum of an (8, 128) block from an initial value, read at the ideal values: the initial value plus the
    sum of the block's 1024 entries. -/
theorem block_sum (y : FVec Ideal S8x128 .f32) (z : FVec Ideal S_ .f32) (i : S_.Idx) :
    Host.reduceAdd (F := Ideal) (φ := .f32) y z Facts₀.reducesTo_S8x128_S_d0_1 Facts₀.h_S_ i = z (Shape.Idx.first Facts₀.h_S_) + ∑ j : S8x128.Idx, y j := by
  simp only [Host.reduceAdd, Ideal.hostReduceAdd_def]
  exact Ideal.hostReduceAdd_total Facts₀.reducesTo_S8x128_S_d0_1 (fun b => b.elim0) y _ i

/-- The closing operations applied to a block whose every entry is `x`: the triplet term plus one times `x` over 2²⁶. -/
theorem tail_of_const (t : (⟨S_, .f32⟩ : BufTy).Contents (Elt Ideal)) (out : (⟨S8x128, .f32⟩ : BufTy).Contents (Elt Ideal)) (x : EReal)
    (hout : ∀ j, out j = x) (i : S_.Idx) :
    tailFn (F := Ideal) t out i
      = t i + Ideal.ofBits .f32 0x3F800000#32 * Ideal.div x (Ideal.ofBits .f32 0x4C800000#32) := by
  have hmean : Ideal.div (Host.reduceAdd (F := Ideal) (φ := .f32) out (constant (F := Ideal) S_ .f32 0x00000000#32) Facts₀.reducesTo_S8x128_S_d0_1 Facts₀.h_S_ i)
      (Ideal.ofBits .f32 0x44800000#32) = x := by
    rw [block_sum, Cert.Spec.ofBits_1024]
    have h0 : (constant (F := Ideal) S_ .f32 0x00000000#32) (Shape.Idx.first Facts₀.h_S_) = 0 := Ideal.ofBits_zero_f32
    rw [h0, Finset.sum_congr rfl (fun j _ => hout j)]
    exact Cert.Spec.mean_const x
  show t i + Ideal.ofBits .f32 0x3F800000#32 * Ideal.div (Ideal.div (Host.reduceAdd (F := Ideal) (φ := .f32) out (constant (F := Ideal) S_ .f32 0x00000000#32)
      Facts₀.reducesTo_S8x128_S_d0_1 Facts₀.h_S_ i) (Ideal.ofBits .f32 0x44800000#32)) (Ideal.ofBits .f32 0x4C800000#32) = _
  rw [hmean]

variable (m : (ℓ : Loc nD τ sig) → Buf (Elt Ideal) ℓ)

/-- THE KERNEL'S RESULT is the reference's result stage of the same four arguments. -/
theorem kernel_value (c : Dev nD) :
    StableHlo.after hostOps1 (Wexit m c) (Proc.devRef .tc main_v25)
      = Cert.ReferenceIdeal.Read.val_main_v26 (F := Ideal) (m ((c.tc : Thread nD τ).loc main_arg0)) (m ((c.tc : Thread nD τ).loc main_arg1))
          (m ((c.tc : Thread nD τ).loc main_arg2)) (m ((c.tc : Thread nD τ).loc main_arg3)) := by
  rw [tail_eq, V_triplet, out_final]
  funext i
  obtain rfl : i = ix0 := eq_ix0 i
  have hlane : ∀ j : S8x128.Idx, accAt m c 63 j
      = Cert.Spec.total (Cert.ReferenceIdeal.Read.val_main_v18 (F := Ideal) (m ((c.tc : Thread nD τ).loc main_arg0))) (m ((c.tc : Thread nD τ).loc main_arg3)) := by
    intro j
    obtain ⟨a, b, rfl⟩ : ∃ (a : Fin 8) (b : Fin 128), j = ix2 a b := ⟨j 0, j 1, eq_ix2 j⟩
    rw [acc_apply m c 63 (by decide) a b, Cert.Spec.accFold_tiles, V_anchor, V_arg3]
  rw [tail_of_const _ _ _ hlane ix0, Cert.ReferenceIdeal.Read.val_main_v26_apply, Cert.ReferenceIdeal.Read.val_main_v25_apply,
    Cert.ReferenceIdeal.Read.val_main_v24_apply, Cert.RefValue.ref_total]
  rfl

end Cert.Bridge

end
-- ==== Proof.lean ====
/-
  A triplet loss with a pairwise cosine-similarity term: the kernel computes the mean squared error between the
  Gram matrix of the row-normalised anchor and a given similarity matrix tile by tile, the reference in one
  reduction; the triplet term and the normalisation are the same host text in both.

  The claims. Each kernel program (the word-level one and its idealization) runs to the end with its arguments
  unchanged: @main is host operations, one region over an 8 × 8 grid whose first two windows read one array, and
  host operations again, run segment by segment; the region's body keeps an (8, 128) accumulator between grid points.
  The reference's frame is its run with the result dropped. The idealization rewrote nothing. At the ideal values the
  kernel's result is the triplet term plus one times the mean of 1024 copies of the 64 tiles' accumulated sum over
  2²⁶, and the reference's is the triplet term plus one times the whole matrix's sum over 2²⁶: the tiles partition
  the matrix, sums on the extended reals may be re-ordered freely, and the mean of 1024 copies of a number is that
  number, so the two are equal at every input.
-/
import proofs.«157451_j90563680404074_1_alg».proof.Defs
import proofs.«157451_j90563680404074_1_alg».proof.Proof.Gen.Kernel
import proofs.«157451_j90563680404074_1_alg».proof.Proof.Gen.KernelIdeal
import proofs.«157451_j90563680404074_1_alg».proof.Proof.Gen.ReferenceIdeal
import proofs.«157451_j90563680404074_1_alg».proof.Proof.Gen.ReferenceIdeal.Run
import proofs.«157451_j90563680404074_1_alg».proof.Proof.Gen.Pre_finite_inputs
import proofs.«157451_j90563680404074_1_alg».proof.Proof.K.Launch
import proofs.«157451_j90563680404074_1_alg».proof.Proof.Bridge
import Idealize.ShloMosaic.Adequacy
import Idealize.ShloMosaic.Init

noncomputable section

namespace Cert.Proof

open Idealize.ShloMosaic Idealize.SL.Sem

/-- The word-level kernel program runs to the end with its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- At the ideal values, from memories agreeing on the four arguments, both programs end with the reference's result
    stage of those arguments: the kernel by its run and the bridge, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨(h c).1.trans (Cert.Bridge.kernel_value m c), (h c).2⟩) (Cert.KernelIdeal.Hand.run_main (F := Ideal) m ρ)
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v26_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
